-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8192x2048 .f32) (main_arg1 : FVec F S8x2048x8192 .f32) (main_arg2 : FVec F S8x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S1x1024x2048 : Shape := ⟨3, ![1, 1024, 2048]⟩
abbrev S1x2048x128 : Shape := ⟨3, ![1, 2048, 128]⟩
abbrev S1x128x2048 : Shape := ⟨3, ![1, 128, 2048]⟩
abbrev S1024x2048 : Shape := ⟨2, ![1024, 2048]⟩
abbrev S2048x128 : Shape := ⟨2, ![2048, 128]⟩
abbrev S1024x128 : Shape := ⟨2, ![1024, 128]⟩
abbrev S128x2048 : Shape := ⟨2, ![128, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x2048, .f32⟩
  | .hbm, ⟨5, _⟩ => ⟨S8192x2048, .f32⟩
  | .local _ .vmem, ⟨0, _⟩ => ⟨S1x1024x2048, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x128x2048, .f32⟩
  | .local _ .vmem, ⟨6, _⟩ => ⟨S1x128x2048, .f32⟩
  | .local _ .vmem, ⟨7, _⟩ => ⟨S1x1024x2048, .f32⟩
  | .local _ .vmem, ⟨8, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v27 : BitVec 1 := Scalar.cmpi .eq arg1 c31_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S8192x2048_S8x1024x2048 : S8192x2048.ShapeCasts S8x1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S1024x2048_S1x1024x2048 : S1024x2048.ShapeCasts S1x1024x2048
  shapeCasts_S8x1024x2048_S8192x2048 : S8x1024x2048.ShapeCasts S8192x2048
  dot_S1024x2048_S2048x128_S1024x128_1_0_0_1_n_n_wf : DotDims.WF S1024x2048 S2048x128 S1024x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x8192.size a
  hwx0_1 : ∀ i : grid0.Coords, EltTy.bits .f32 = 32 ∨ (Rect.block (s := S8x2048x8192) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x8192.size a
  hwx0_2 : ∀ i : grid0.Coords, EltTy.bits .f32 = 32 ∨ (Rect.block (s := S8x2048x8192) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S8x4096x2048.size a
  hwx0_3 : ∀ i : grid0.Coords, EltTy.bits .f32 = 32 ∨ (Rect.block (s := S8x4096x2048) S1x128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x1024x2048.size a
  hwx0_4 : ∀ i : grid0.Coords, EltTy.bits .f32 = 32 ∨ (Rect.block (s := S8x1024x2048) S1x1024x2048.size (cc0_transform_4 i) (hinb0_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v0) S1x1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x2048.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x8192, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S8x1024x4096, .f32⟩
  | .hbm, ⟨9, _⟩ => ⟨S_, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.KBRuns.lean ====
/-
  What the three runs of the kernel body share.

  The grid is 8 experts × 32 tiles of the feed-forward width, walked expert by expert; point `t` is tile `t % 32` of
  expert `t / 32`. The body branches twice on the tile number alone: at tile 0 it clears the accumulator, at tile 31
  it copies the accumulator into the output block. So a point is in one of three cases: the FIRST tile (clear, then
  accumulate), a MIDDLE tile (accumulate), the LAST tile (accumulate, then copy out). The output window is idle, and
  not written back, at every point but an expert's last.

  Here: the arrays as the region finds them (after the one host reshape before it), each window's block at a point,
  the two branch conditions in closed form, where the output window is idle, and the names of the staging memrefs
  and of the accumulator.
-/
import proofs.«136953_j71640054497665_1_alg».proof.Proof.Gen.Kernel.Launch
import proofs.«136953_j71640054497665_1_alg».proof.Proof.Gen.Kernel.Skeleton
import proofs.«136953_j71640054497665_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch memory after the grouping reshape. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "This is the expert's first tile", as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- "This is the expert's last tile". -/
abbrev cond0_1 (i : grid0.Coords) : Prop := k0_cond2 i = 1#1
/-- It holds at the points ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off an expert's last tile the body stores nothing into the output block, -/
theorem idleAt0_4 : ∀ t : Fin cfg0.N, ¬cond0_1 (grid0.coords t) → cfg0.idle 4 (grid0.coords t) = true := by decide +kernel
/-- and the pipeline does not write it back there. -/
theorem noFlush0_4 : ∀ t : Fin cfg0.N, ¬cond0_1 (grid0.coords t) → (cfg0.win 4).flush t = false := by decide +kernel
/-- At an expert's last tile the output block is stored. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1x1024x2048 .f32 := (Memref.whole cc0_stg4_0 : Memref sig .tc .vmem S1x1024x2048 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x2048 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from tile to tile. -/
abbrev scM0_0 : Memref sig .tc .vmem S1024x2048 .f32 := Memref.whole cc0_scratch0
abbrev VS0_0 : View sig .tc .vmem S1024x2048 .f32 := scM0_0.view

/-- The core's scoped buffers that are no staging buffer are the accumulator alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.KBLaunch.lean ====
/-
  The launch of the idealized kernel program: from a body obligation about the pipelined kernel to the run of the
  whole @main.

  @main is a reshape of the first argument (8192×2048 grouped as 8×1024×2048, `main_v0`), ONE kernel region — a
  pipeline of five windows over the grid of 8 experts × 32 tiles —, and a reshape of the region's result (`main_v1`,
  8×1024×2048) back to 8192×2048 (`main_v2`). Windows 1 and 2, the gate tile and the up tile, read ONE array, the
  second argument: the four buffers behind the five windows are not pairwise distinct. So the array's whole share is
  split in its two halves, one per window on it (`pointsTo_share`): both windows only read, and a half share reads as
  well as a whole one. The two halves are not put together again after the region: one half is enough to read the
  argument back at the end.

  The run is the library's theorem for an @main given as a list of segments (`Pipeline.θ_run_regions_kit`): the host
  segment of the first reshape over all the unscoped buffers, the region, the host segment of the second reshape
  over its two buffers alone, the arguments riding beside it. Its conclusion: every weakly fair execution of @main
  on the TensorCores terminates, `main_v2` holding the output array as the pipeline's write-backs leave it,
  regrouped, and the three arguments as launched (no reshape writes them, and an input window's array is never
  written).
-/
import proofs.«136953_j71640054497665_1_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_v1) ↦{fullShare} W main_v1)) := by
  unfold Pipeline.arrBufs
  exact bigSep_eq_bigSepL_of_eq [main_v0, main_arg1, main_arg2, main_v1] (by decide) (by decide) _

/-- The pipeline's arrays at contents `G`, window by window: whole buffers, the twice-read one at its two halves. -/
theorem arrays0_eq {c : Dev nD} (dat : Dat τ (Elt F) Unit ℕ (UR sig nD τ) ℕ cfg0 c)
    (hq0 : dat.q 0 = fullShare) (hq1 : dat.q 1 = fullShare.left) (hq2 : dat.q 2 = fullShare.right) (hq3 : dat.q 3 = fullShare)
    (G : (w : Fin cfg0.W) → Buf (Elt F) ((cfg0.win w).arr.view.loc (c : Thread nD τ))) :
    (dat.arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare} G 3)
          ∗ (((c : Thread nD τ).loc main_v1) ↦{fullShare} G 4)) := by
  unfold Dat.arrays
  rw [bigSep_W0]
  have s0 : dat.share 0 = fullShare := by unfold Dat.share; rw [if_neg (by decide)]; exact hq0
  have s1 : dat.share 1 = fullShare.left := by unfold Dat.share; rw [if_neg (by decide)]; exact hq1
  have s2 : dat.share 2 = fullShare.right := by unfold Dat.share; rw [if_neg (by decide)]; exact hq2
  have s3 : dat.share 3 = fullShare := by unfold Dat.share; rw [if_neg (by decide)]; exact hq3
  have s4 : dat.share 4 = fullShare := by unfold Dat.share; rw [if_pos (by decide)]
  rw [s0, s1, s2, s3, s4, (arr_whole0 0).set_eq_univ, (arr_whole0 1).set_eq_univ, (arr_whole0 3).set_eq_univ, (arr_whole0 4).set_eq_univ]

/-! ## The segments' setting -/

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers through the reshape before the region: the core owing nothing, no wait of its
    recorded yet (the launch's own account); -/
abbrev R₀ (c : Dev nD) : sProp 𝕄 := owes (c : Thread nD τ) (0 : CellTallies nD τ sig Unit) ∅
/-- and through the one after it: the core owing nothing, the pipeline's waits recorded. -/
abbrev R (c : Dev nD) : sProp 𝕄 := iprop(∃ W, owes (c : Thread nD τ) (0 : CellTallies nD τ sig Unit) W)

/-- The two buffers the reshape after the region touches. -/
def S1 : Finset (DevRef τ sig) := {Proc.devRef .tc main_v1, Proc.devRef .tc main_v2}

omit [FloatOps F] in
/-- Those two held at a valuation, one by one. -/
theorem held_S1 (c : Dev nD) (W : Valuation τ sig (Elt F)) :
    (StableHlo.held (c : Thread nD τ) S1 W : sProp 𝕄)
      = iprop((((c : Thread nD τ).loc main_v1) ↦{fullShare} W (Proc.devRef .tc main_v1))
          ∗ (((c : Thread nD τ).loc main_v2) ↦{fullShare} W (Proc.devRef .tc main_v2))) := by
  unfold StableHlo.held S1
  rw [bigSep_insert (by rw [Finset.mem_singleton]; exact StableHlo.devRef_ne_of_ne (by decide)), bigSep_singleton]
  rfl

variable (dats : (p : Fin 1) → (c : Dev nD) → Dat τ (Elt F) Unit ℕ (UR sig nD τ) ℕ cfg0 c)

/-- Core `c`'s buffers when the region is left: the output array at what the pipeline wrote, the rest as entered. -/
def V2 (c : Dev nD) : Valuation τ sig (Elt F) :=
  Function.update (V0 m c) (Proc.devRef .tc main_v1) ((dats 0 c).arrAt 4 cfg0.N)

theorem V2_v1 (c : Dev nD) : V2 m dats c (Proc.devRef .tc main_v1) = (dats 0 c).arrAt 4 cfg0.N := by
  unfold V2; rw [Function.update_self]

theorem V2_v2 (c : Dev nD) : V2 m dats c (Proc.devRef .tc main_v2) = V m c main_v2 := by
  unfold V2; rw [Function.update_of_ne (StableHlo.devRef_ne_of_ne (by decide))]

/-- The arguments' buffers, the region's inputs, as they bypass the reshape after it: the first argument whole, of
    the twice-read second one half, the third whole, each at its entry contents. -/
abbrev Args (c : Dev nD) : sProp 𝕄 :=
  iprop((((c : Thread nD τ).loc main_arg0) ↦{fullShare} V m c main_arg0)
    ∗ (((c : Thread nD τ).loc main_arg1) ↦{fullShare.left} V m c main_arg1)
    ∗ (((c : Thread nD τ).loc main_arg2) ↦{fullShare} V m c main_arg2))

/-- What bypasses the region: the unscoped buffers that are no window's array. -/
abbrev Zc (c : Dev nD) : sProp 𝕄 :=
  iprop((((c : Thread nD τ).loc main_arg0) ↦{fullShare} V m c main_arg0) ∗ (((c : Thread nD τ).loc main_v2) ↦{fullShare} V m c main_v2))

/-! ## The region's entry and exit -/

/-- ENTRY: the unscoped buffers at their entry contents are the pipeline's arrays — the twice-read array's whole
    share split into its two halves, one per window on it — and the two buffers that bypass the region. -/
theorem entry0 (c : Dev nD) (hA : ∀ w, (dats 0 c).A w = V m c (Pipeline.arrRef spec0 w))
    (hq0 : (dats 0 c).q 0 = fullShare) (hq1 : (dats 0 c).q 1 = fullShare.left)
    (hq2 : (dats 0 c).q 2 = fullShare.right) (hq3 : (dats 0 c).q 3 = fullShare) :
    (StableHlo.held (c : Thread nD τ) (Pipeline.ucRefs τ sig) (V0 m c) : sProp 𝕄)
      ⊢ iprop((dats 0 c).arrays ((dats 0 c).arrAt · 0) ∗ Zc m c) := by
  rw [← Pipeline.unscopedBufs_held (Ix := Unit) (Name := ℕ) (U := UR sig nD τ) (Lvl := ℕ) c (V0 m c),
    Pipeline.unscopedBufs_split₀ cfgs 0 winFacts₀0.arr_unscoped c, arrBufs0_eq, unscopedRest0_eq,
    arrays0_eq (dats 0 c) hq0 hq1 hq2 hq3]
  simp only [show ∀ w, (dats 0 c).arrAt w 0 = (dats 0 c).A w from fun _ => rfl, hA]
  iintro ⟨⟨H0, H1, H3, H4⟩, HZ⟩
  ihave H1' := (pointsTo_share (PosShare.mem_left_op_right fullShare)).1 $$ H1
  icases H1' with ⟨H1, H2⟩
  isplitr [HZ]
  · isplitl [H0]; · iexact H0
    isplitl [H1]; · iexact H1
    isplitl [H2]; · iexact H2
    isplitl [H3]; · iexact H3
    iexact H4
  · iexact HZ

/-- EXIT: the arrays as the pipeline leaves them — an input's as it was entered, for an input array is never
    written — and the bypassing buffers are the two buffers of the reshape after the region, beside the arguments. -/
theorem exit0 (c : Dev nD) (hA : ∀ w, (dats 0 c).A w = V m c (Pipeline.arrRef spec0 w))
    (hq0 : (dats 0 c).q 0 = fullShare) (hq1 : (dats 0 c).q 1 = fullShare.left)
    (hq2 : (dats 0 c).q 2 = fullShare.right) (hq3 : (dats 0 c).q 3 = fullShare) :
    iprop((dats 0 c).arrays ((dats 0 c).arrAt · cfg0.N) ∗ Zc m c)
      ⊢ (iprop(StableHlo.held (c : Thread nD τ) S1 (V2 m dats c) ∗ Args m c) : sProp 𝕄) := by
  rw [arrays0_eq (dats 0 c) hq0 hq1 hq2 hq3, held_S1, V2_v1, V2_v2]
  simp only [(dats 0 c).arrAt_in 1 rfl, (dats 0 c).arrAt_in 3 rfl, hA]
  iintro ⟨⟨-, H1, -, H3, H4⟩, Ha0, Hv2⟩
  isplitl [H4 Hv2]
  · isplitl [H4]; · iexact H4
    iexact Hv2
  · isplitl [Ha0]; · iexact Ha0
    isplitl [H1]; · iexact H1
    iexact H3

/-! ## @main as segments -/

/-- THE HOST SEGMENT BEFORE THE REGION: the grouping reshape, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (fun c b => m (c, b)) R₀

/-- THE HOST SEGMENT AFTER THE REGION: the ungrouping reshape, over its two buffers; the arguments ride along. -/
def seg1 : Pipeline.HostSeg (Name := ℕ) (U := UR sig nD τ) (pcfgs (F := F)) defs₀ 𝒱₀ L lv :=
  Pipeline.HostSeg.ofOps _ _ _ _ _ S1 hostOps1
    (by intro _ h; (repeat (cases h with | head => exact Finset.Subset.refl _ | tail _ h => ?_)); exact nomatch h)
    (by intro _ h; (repeat (cases h with | head => rfl | tail _ h => ?_)); exact nomatch h) (V2 m dats)
    (fun c => iprop(Args m c ∗ R c))

/-- The core's account at the region's entry: it owes nothing, and no recorded wait is within any bound. -/
theorem owes_in (c : Dev nD) (howed : ∀ t, (dats 0 c).owed t = 0) : (R₀ c : sProp 𝕄) ⊢ (dats 0 c).owesAt () 0 := by
  unfold Dat.owesAt Pipeline.owesWithin; rw [howed 0]
  iintro HO; iexists ∅; isplitr; · ipureintro; simp
  iexact HO

/-- At its exit: it owes nothing still. -/
theorem owes_out (c : Dev nD) (howed : ∀ t, (dats 0 c).owed t = 0) : (dats 0 c).owesAt () (Fin.last cfg0.N) ⊢ (R c : sProp 𝕄) := by
  unfold Dat.owesAt Pipeline.owesWithin; rw [howed]
  iintro ⟨%W, -, HO⟩; iexists W; iexact HO

set_option backward.isDefEq.respectTransparency.types false in
/-- THE REGION: the layout, no semaphore of the kernel's own, the body obligation; entered from what the first
    reshape left — the four buffers behind the five windows into the pipeline, the twice-read one by halves, the
    first argument and the result's buffer bypassing —, left with the output array as written and the inputs'
    as entered, sorted for the second reshape. -/
def reg0 (hA : ∀ c w, (dats 0 c).A w = V m c (Pipeline.arrRef spec0 w))
    (hq0 : ∀ c, (dats 0 c).q 0 = fullShare) (hq1 : ∀ c, (dats 0 c).q 1 = fullShare.left)
    (hq2 : ∀ c, (dats 0 c).q 2 = fullShare.right) (hq3 : ∀ c, (dats 0 c).q 3 = fullShare)
    (howed : ∀ c t, (dats 0 c).owed t = 0)
    (hbody : ∀ c, BodyObligation (dats 0 c) (defs₀ (F := F)) Variants.none () Set.univ)
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (V0 m c) ∗ R₀ c)
  post c := iprop(StableHlo.held (c : Thread nD τ) S1 (V2 m dats c) ∗ Args m c ∗ R c)
  X c := iprop(emp)
  Y c := iprop(emp)
  Z c := Zc m c
  hentry c := by
    iintro ⟨⟨Hh, HO⟩, -, -⟩
    ihave H := (entry0 m dats c (hA c) (hq0 c) (hq1 c) (hq2 c) (hq3 c)) $$ Hh
    icases H with ⟨Ha, HZ⟩
    ihave HO' := (owes_in dats c (howed c)) $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitr; · iempintro
    iexact HZ
  hin c := by
    iintro ⟨-, -, Hr⟩
    iapply (hin c); iexact Hr
  hout c := by
    rw [Pipeline.ownSems0_none]
    iintro H
    isplitr; · iempintro
    isplitr; · iempintro
    iapply (hout c); iexact H
  hexit c := by
    iintro ⟨Ha, HO, -, HZ⟩
    ihave H := (exit0 m dats c (hA c) (hq0 c) (hq1 c) (hq2 c) (hq3 c)) $$ [Ha HZ]
    · isplitl [Ha] <;> iassumption
    icases H with ⟨Hh, Hargs⟩
    ihave HO' := (owes_out dats c (howed c)) $$ HO
    imodintro
    isplitl [Hh]; · iexact Hh
    isplitl [Hargs]; · iexact Hargs
    iexact HO'

/-! ## What the reshapes leave alone, and what the second one writes -/

/-- The first reshape writes `main_v0` alone. -/
theorem not_written0 (b : Ref sig .tc) (hb : b ≠ main_v0) :
    ∀ op ∈ (hostOps0 (F := F)), Proc.devRef (τ := τ) .tc b ∉ op.writes := by
  intro op hop
  simp only [List.mem_cons, List.mem_nil_iff, or_false] at hop
  subst hop
  simp only [StableHlo.reshape_writes, Finset.mem_singleton]
  exact StableHlo.devRef_ne_of_ne hb

/-- Every other buffer enters the region as launched. -/
theorem V_of_ne (c : Dev nD) (b : Ref sig .tc) (hb : b ≠ main_v0) : V m c b = m ((c : Thread nD τ).loc b) :=
  StableHlo.after_of_forall_not_mem (b := Proc.devRef .tc b) hostOps0 (fun b => m (c, b)) (not_written0 b hb)

/-- The second reshape leaves in `main_v2` the output array, regrouped. -/
theorem after1_v2 (c : Dev nD) :
    StableHlo.after hostOps1 (V2 m dats c) (Proc.devRef .tc main_v2)
      = shapeCast S8192x2048 ((dats 0 c).arrAt 4 cfg0.N) shapeCasts_S8x1024x2048_S8192x2048 := by
  simp only [StableHlo.after_cons, StableHlo.after_nil]
  rw [StableHlo.reshape_result, V2_v1]
  rfl

/-! ## The launch -/

set_option backward.isDefEq.respectTransparency.types false in
/-- The launch, for any proof data of the pipeline whose arrays are the region-entry contents, whose shares of the
    twice-read array are the two halves, that owes nothing, whose invariant starts from and gives back the scoped
    rest: every weakly fair execution of @main terminates, the result holding the output array as the pipeline's
    write-backs leave it, regrouped, and the three arguments as launched. -/
theorem run_of
    (hA : ∀ c w, (dats 0 c).A w = V m c (Pipeline.arrRef spec0 w))
    (hq0 : ∀ c, (dats 0 c).q 0 = fullShare) (hq1 : ∀ c, (dats 0 c).q 1 = fullShare.left)
    (hq2 : ∀ c, (dats 0 c).q 2 = fullShare.right) (hq3 : ∀ c, (dats 0 c).q 3 = fullShare)
    (howed : ∀ c t, (dats 0 c).owed t = 0)
    (hbody : ∀ c, BodyObligation (dats 0 c) (defs₀ (F := F)) Variants.none () Set.univ)
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run defs (onTc (τ := τ) (main (F := F))) ⟨m, fun _ => 0, ρ⟩ (fun r => ∀ c : Dev nD,
      r.2.mem ((c.tc : Thread nD τ).loc main_v2)
          = shapeCast S8192x2048 ((dats 0 c).arrAt 4 cfg0.N) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm dats () cellOf_inj emb₁ defs₀ 𝒱₀ L lv m ρ main
    [.host (seg0 m), .region (reg0 m dats hA hq0 hq1 hq2 hq3 howed hbody hin hout), .host (seg1 m dats)]
    (fun c Q => by rw [main_segs adm dats () 𝒱₀ L lv (seg0 m) (seg1 m dats) (reg0 m dats hA hq0 hq1 hq2 hq3 howed hbody hin hout) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R₀ c))
    (Tₙ := fun c => iprop(StableHlo.held (c : Thread nD τ) S1 (StableHlo.after hostOps1 (V2 m dats c)) ∗ Args m c))
    (hch := ⟨fun _ => .rfl, fun _ => .rfl, fun _ => .rfl, fun c => by
      show iprop(StableHlo.held (c : Thread nD τ) S1 (StableHlo.after hostOps1 (V2 m dats c)) ∗ Args m c ∗ R c) ⊢ _
      iintro ⟨Hh, Ha, HO⟩
      isplitr [HO]
      · isplitl [Hh]; · iexact Hh
        iexact Ha
      · iexact HO⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, -, -⟩, -⟩
      imodintro
      isplitl [Hh]; · iexact Hh
      iexact HO)
    (QY := fun c s => s.mem ((c.tc : Thread nD τ).loc main_v2)
          = shapeCast S8192x2048 ((dats 0 c).arrAt 4 cfg0.N) shapeCasts_S8x1024x2048_S8192x2048
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      rw [held_S1, after1_v2]; unfold Args
      rw [V_of_ne m c main_arg0 (by decide), V_of_ne m c main_arg1 (by decide), V_of_ne m c main_arg2 (by decide)]
      iintro ⟨⟨⟨-, Hv2⟩, Ha0, Ha1, Ha2⟩, HSI⟩
      icombine HSI Hv2 gives %h2
      icombine HSI Ha0 gives %h0
      icombine HSI Ha1 gives %h1
      icombine HSI Ha2 gives %h3
      imodintro
      isplitr
      · ipureintro
        exact ⟨Buf.eq_of_forall_mem_univ h2, Buf.eq_of_forall_mem_univ h0, Buf.eq_of_forall_mem_univ h1, Buf.eq_of_forall_mem_univ h3⟩
      iexact HSI)
    (hQ := fun _ h => h)

/-- info: 'Cert.Kernel.Hand.run_of' depends on axioms: [propext, Classical.choice, Quot.sound] -/
#guard_msgs in #print axioms run_of

end Cert.Kernel.Hand

end
-- ==== Proof.KBRunA.lean ====
/-
  The kernel body run whole in the case of an expert's FIRST tile: on whole staging memrefs holding the input blocks, the
  output block's buffer and the accumulator, the body terminates and leaves the inputs as they were and what its
  stores wrote, as a list of pieces (last write first) that the run itself finds.
-/
import proofs.«136953_j71640054497665_1_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first tile of an expert: the accumulator, whatever it held, is cleared and then receives this tile's
    contribution; the output block's buffer is handed back untouched. -/
noncomputable def kernelRun0_A (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x128 .f32) (x2 : Vec F S1x2048x128 .f32) (x3 : Vec F S1x128x2048 .f32) :
    { LS0 : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__moe_expert_kernel i arg2 harg2 arg3 harg3 arg4 harg4 arg5 harg5 arg6 harg6 arg7 harg7) K } := by
  refine ⟨?_, fun xi4 E K => ?run⟩
  case run =>
    simp only [cc0__moe_expert_kernel_eq_skeleton]; unfold cc0__moe_expert_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KBRunB.lean ====
/-
  The kernel body run whole in the case of a MIDDLE tile: on whole staging memrefs holding the input blocks, the
  output block's buffer and the accumulator, the body terminates and leaves the inputs as they were and what its
  stores wrote, as a list of pieces (last write first) that the run itself finds.
-/
import proofs.«136953_j71640054497665_1_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A middle tile: the accumulator, at what the tile before left (`xs0`), receives this tile's contribution; the
    output block's buffer is handed back untouched. -/
noncomputable def kernelRun0_B (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x128 .f32) (x2 : Vec F S1x2048x128 .f32) (x3 : Vec F S1x128x2048 .f32) (xs0 : Vec F S1024x2048 .f32) :
    { LS0 : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__moe_expert_kernel i arg2 harg2 arg3 harg3 arg4 harg4 arg5 harg5 arg6 harg6 arg7 harg7) K } := by
  refine ⟨?_, fun xi4 E K => ?run⟩
  case run =>
    simp only [cc0__moe_expert_kernel_eq_skeleton]; unfold cc0__moe_expert_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KBRunC.lean ====
/-
  The kernel body run whole in the case of an expert's LAST tile: on whole staging memrefs holding the input blocks, the
  output block's buffer and the accumulator, the body terminates and leaves the inputs as they were and what its
  stores wrote, as a list of pieces (last write first) that the run itself finds.
-/
import proofs.«136953_j71640054497665_1_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- An expert's last tile: the accumulator, at what the tile before left (`xs0`), receives this tile's
    contribution and is then copied into the output block's buffer, whatever that held. -/
noncomputable def kernelRun0_C (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) :
    Σ' (L4 : List (View.Piece (Elt F) S1x1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__moe_expert_kernel i arg2 harg2 arg3 harg3 arg4 harg4 arg5 harg5 arg6 harg6 arg7 harg7) K } := by
  refine ⟨?_, ?_, fun E K => ?run⟩
  case run =>
    simp only [cc0__moe_expert_kernel_eq_skeleton]; unfold cc0__moe_expert_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.Kernel.Hand

end
-- ==== Proof.KBFrame.lean ====
/-
  The pipeline's proof data and the body obligation.

  What the accumulator holds after each grid point is defined by recursion on the point: at an expert's first tile
  the body's two stores (the clearing, then this tile's contribution over it) read back; at a later tile its one
  store over what the tile before left. The output block's buffer is named only at an expert's last tile, where the
  body copies the accumulator into it; elsewhere the window is idle and nothing consults it.

  The invariant between points is the accumulator owned at exactly those contents (before the very first point: at
  anything, since the first tile clears it). With that, the body obligation at a point is the run of the point's
  case.
-/
import proofs.«136953_j71640054497665_1_alg».proof.Proof.KBRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first tile's two stores into the accumulator tile it. -/
theorem scover0_A_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x128 .f32) (x2 : Vec F S1x2048x128 .f32) (x3 : Vec F S1x128x2048 .f32) (y : S1024x2048.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1024x2048.size (by sl_kernel_rfl) y

/-- What the first tile leaves in the accumulator: its stores read back. -/
def sout0_A_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x128 .f32) (x2 : Vec F S1x2048x128 .f32) (x3 : Vec F S1x128x2048 .f32) : Vec F S1024x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

/-- A middle tile's store into the accumulator covers it. -/
theorem scover0_B_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x128 .f32) (x2 : Vec F S1x2048x128 .f32) (x3 : Vec F S1x128x2048 .f32) (xs0 : Vec F S1024x2048 .f32) (y : S1024x2048.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S1024x2048.size (by sl_kernel_rfl) y

/-- What a middle tile leaves in the accumulator. -/
def sout0_B_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x128 .f32) (x2 : Vec F S1x2048x128 .f32) (x3 : Vec F S1x128x2048 .f32) (xs0 : Vec F S1024x2048 .f32) : Vec F S1024x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

/-- The last tile's store into the output block's buffer covers it. -/
theorem cover0_C_4 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) (y : S1x1024x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1024x2048.size (by sl_kernel_rfl) y

/-- What the last tile leaves in the output block's buffer. -/
def out0_C_4 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) : Vec F S1x1024x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The last tile's store into the accumulator covers it. -/
theorem scover0_C_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) (y : S1024x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x2048.size (by sl_kernel_rfl) y

/-- What the last tile leaves in the accumulator. -/
def sout0_C_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) : Vec F S1024x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- A stand-in for the output block's buffer at a point idle for it: nothing consults it. -/
def idleOut : Vec F S1x1024x2048 .f32 := VO0_4.read (Elt F) VO0_4.junk

/-! ## Point by point -/

/-- After the body at position `n`: the output block's buffer and the accumulator. -/
def outsAt0 (c : Dev nD) : (n : ℕ) → n < cfg0.N → Vec F S1x1024x2048 .f32 × Vec F S1024x2048 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 32 = 0 then
      (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 32 = 31 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At an expert's first tile. -/
theorem outsAt0_A (c : Dev nD) (t : Fin cfg0.N) (h0 : t.val % 32 = 0) :
    outsAt0 m c t.val t.isLt = (idleOut, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => (fun h => by omega) ((hcond0_1 t).mp h)) (iblk m c 0 t) (iblk m c 1 t) (iblk m c 2 t) (iblk m c 3 t)) := by
  obtain ⟨n, hn⟩ := t
  cases n with
  | zero => exact rfl
  | succ n => exact (dif_pos h0).trans rfl

/-- At a middle tile: over what the point before left. -/
theorem outsAt0_B (c : Dev nD) (t : Fin cfg0.N) (h0 : ¬t.val % 32 = 0) (h1 : ¬t.val % 32 = 31) :
    outsAt0 m c t.val t.isLt = (idleOut, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At an expert's last tile: over what the point before left. -/
theorem outsAt0_C (c : Dev nD) (t : Fin cfg0.N) (h0 : ¬t.val % 32 = 0) (h1 : t.val % 32 = 31) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator at anything; afterwards at what the
    point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the region finds them; after the body each input's buffer at its block and the output's at
    `outsAt0`; the accumulator's invariant; nothing owed; the array the gate and the up window both read held in two
    halves, everything else whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the tile number says which case the point is in;
    the invariant hands the body the accumulator at what the point before left (at anything before the first point)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0_0, leaves0_1, leaves0_2, leaves0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 32 = 0
  · have h1 : ¬t.val % 32 = 31 := by omega
    have hc0 : cond0_0 (grid0.coords t) := (hcond0_0 t).mpr h0
    have hc1 : ¬cond0_1 (grid0.coords t) := fun h => h1 ((hcond0_1 t).mp h)
    rw [Dat.leavesExact_idle (dats m 0 c) 4 t (idleAt0_4 t hc1) (noFlush0_4 t hc1)]
    rw [outsAt0_A m c t h0]
    unfold sout0_A_0; (try dsimp only)
    have hrun := (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) hc0 (fun h => (fun h => by omega) ((hcond0_1 t).mp h)) (iblk m c 0 t) (iblk m c 1 t) (iblk m c 2 t) (iblk m c 3 t)).2
    by_cases hz : t.val = 0
    · rw [PhiS_castSucc m c t, PhiS_zero m c _ _ hz, scopedRest0_owns]
      iintro ⟨HS0, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0_0 (grid0.coords t) := fun h => h0 ((hcond0_0 t).mp h)
    by_cases h1 : t.val % 32 = 31
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [outsAt0_C m c t h0 h1]
      unfold out0_C_4 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · have hc1 : ¬cond0_1 (grid0.coords t) := fun h => h1 ((hcond0_1 t).mp h)
      rw [Dat.leavesExact_idle (dats m 0 c) 4 t (idleAt0_4 t hc1) (noFlush0_4 t hc1)]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- The scoped rest is the invariant before the first point, -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- and after the last point the invariant gives it back: the accumulator's contents are forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  have hN : cfg0.N = 256 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), scopedRest0_owns]
  iintro HS0
  iexists _; iexact HS0

end Cert.Kernel.Hand

end
-- ==== Proof.KBMain.lean ====
/-
  The idealized kernel program's run, for any float instance: every weakly fair execution of @main terminates,
  nothing faults, the result array holds the flattening of what the pipeline wrote back block by block, and the three
  argument arrays end as they began. The launch is `run_of`, instantiated at the accumulator's proof data.
-/
import proofs.«136953_j71640054497665_1_alg».proof.Proof.KBLaunch
import proofs.«136953_j71640054497665_1_alg».proof.Proof.KBFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with the result named through the proof data's final output array. -/
theorem run_main : θ_run defs (onTc (τ := τ) (main (F := F))) ⟨m, fun _ => 0, ρ⟩ (fun r => ∀ c : Dev nD,
      r.2.mem ((c.tc : Thread nD τ).loc main_v2)
          = shapeCast S8192x2048 ((dats m 0 c).arrAt 4 cfg0.N) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ (dats m) (A_eq m) (fun _ => rfl) (fun _ => rfl) (fun _ => rfl) (fun _ => rfl) (fun _ _ => rfl)
    (body_obligation m) (hin m) (hout m)

/-- The frame: the program runs to the end and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KIRuns.lean ====
/-
  What the three runs of the kernel body share.

  The grid is 8 experts × 32 tiles of the feed-forward width, walked expert by expert; point `t` is tile `t % 32` of
  expert `t / 32`. The body branches twice on the tile number alone: at tile 0 it clears the accumulator, at tile 31
  it copies the accumulator into the output block. So a point is in one of three cases: the FIRST tile (clear, then
  accumulate), a MIDDLE tile (accumulate), the LAST tile (accumulate, then copy out). The output window is idle, and
  not written back, at every point but an expert's last.

  Here: the arrays as the region finds them (after the one host reshape before it), each window's block at a point,
  the two branch conditions in closed form, where the output window is idle, and the names of the staging memrefs
  and of the accumulator.
-/
import proofs.«136953_j71640054497665_1_alg».proof.Proof.Gen.KernelIdeal.Launch
import proofs.«136953_j71640054497665_1_alg».proof.Proof.Gen.KernelIdeal.Skeleton
import proofs.«136953_j71640054497665_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch memory after the grouping reshape. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "This is the expert's first tile", as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- "This is the expert's last tile". -/
abbrev cond0_1 (i : grid0.Coords) : Prop := k0_cond2 i = 1#1
/-- It holds at the points ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off an expert's last tile the body stores nothing into the output block, -/
theorem idleAt0_4 : ∀ t : Fin cfg0.N, ¬cond0_1 (grid0.coords t) → cfg0.idle 4 (grid0.coords t) = true := by decide +kernel
/-- and the pipeline does not write it back there. -/
theorem noFlush0_4 : ∀ t : Fin cfg0.N, ¬cond0_1 (grid0.coords t) → (cfg0.win 4).flush t = false := by decide +kernel
/-- At an expert's last tile the output block is stored. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1x1024x2048 .f32 := (Memref.whole cc0_stg4_0 : Memref sig .tc .vmem S1x1024x2048 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x2048 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from tile to tile. -/
abbrev scM0_0 : Memref sig .tc .vmem S1024x2048 .f32 := Memref.whole cc0_scratch0
abbrev VS0_0 : View sig .tc .vmem S1024x2048 .f32 := scM0_0.view

/-- The core's scoped buffers that are no staging buffer are the accumulator alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KILaunch.lean ====
/-
  The launch of the idealized kernel program: from a body obligation about the pipelined kernel to the run of the
  whole @main.

  @main is a reshape of the first argument (8192×2048 grouped as 8×1024×2048, `main_v0`), ONE kernel region — a
  pipeline of five windows over the grid of 8 experts × 32 tiles —, and a reshape of the region's result (`main_v1`,
  8×1024×2048) back to 8192×2048 (`main_v2`). Windows 1 and 2, the gate tile and the up tile, read ONE array, the
  second argument: the four buffers behind the five windows are not pairwise distinct. So the array's whole share is
  split in its two halves, one per window on it (`pointsTo_share`): both windows only read, and a half share reads as
  well as a whole one. The two halves are not put together again after the region: one half is enough to read the
  argument back at the end.

  The run is the library's theorem for an @main given as a list of segments (`Pipeline.θ_run_regions_kit`): the host
  segment of the first reshape over all the unscoped buffers, the region, the host segment of the second reshape
  over its two buffers alone, the arguments riding beside it. Its conclusion: every weakly fair execution of @main
  on the TensorCores terminates, `main_v2` holding the output array as the pipeline's write-backs leave it,
  regrouped, and the three arguments as launched (no reshape writes them, and an input window's array is never
  written).
-/
import proofs.«136953_j71640054497665_1_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_v1) ↦{fullShare} W main_v1)) := by
  unfold Pipeline.arrBufs
  exact bigSep_eq_bigSepL_of_eq [main_v0, main_arg1, main_arg2, main_v1] (by decide) (by decide) _

/-- The pipeline's arrays at contents `G`, window by window: whole buffers, the twice-read one at its two halves. -/
theorem arrays0_eq {c : Dev nD} (dat : Dat τ (Elt F) Unit ℕ (UR sig nD τ) ℕ cfg0 c)
    (hq0 : dat.q 0 = fullShare) (hq1 : dat.q 1 = fullShare.left) (hq2 : dat.q 2 = fullShare.right) (hq3 : dat.q 3 = fullShare)
    (G : (w : Fin cfg0.W) → Buf (Elt F) ((cfg0.win w).arr.view.loc (c : Thread nD τ))) :
    (dat.arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare} G 3)
          ∗ (((c : Thread nD τ).loc main_v1) ↦{fullShare} G 4)) := by
  unfold Dat.arrays
  rw [bigSep_W0]
  have s0 : dat.share 0 = fullShare := by unfold Dat.share; rw [if_neg (by decide)]; exact hq0
  have s1 : dat.share 1 = fullShare.left := by unfold Dat.share; rw [if_neg (by decide)]; exact hq1
  have s2 : dat.share 2 = fullShare.right := by unfold Dat.share; rw [if_neg (by decide)]; exact hq2
  have s3 : dat.share 3 = fullShare := by unfold Dat.share; rw [if_neg (by decide)]; exact hq3
  have s4 : dat.share 4 = fullShare := by unfold Dat.share; rw [if_pos (by decide)]
  rw [s0, s1, s2, s3, s4, (arr_whole0 0).set_eq_univ, (arr_whole0 1).set_eq_univ, (arr_whole0 3).set_eq_univ, (arr_whole0 4).set_eq_univ]

/-! ## The segments' setting -/

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers through the reshape before the region: the core owing nothing, no wait of its
    recorded yet (the launch's own account); -/
abbrev R₀ (c : Dev nD) : sProp 𝕄 := owes (c : Thread nD τ) (0 : CellTallies nD τ sig Unit) ∅
/-- and through the one after it: the core owing nothing, the pipeline's waits recorded. -/
abbrev R (c : Dev nD) : sProp 𝕄 := iprop(∃ W, owes (c : Thread nD τ) (0 : CellTallies nD τ sig Unit) W)

/-- The two buffers the reshape after the region touches. -/
def S1 : Finset (DevRef τ sig) := {Proc.devRef .tc main_v1, Proc.devRef .tc main_v2}

omit [FloatOps F] in
/-- Those two held at a valuation, one by one. -/
theorem held_S1 (c : Dev nD) (W : Valuation τ sig (Elt F)) :
    (StableHlo.held (c : Thread nD τ) S1 W : sProp 𝕄)
      = iprop((((c : Thread nD τ).loc main_v1) ↦{fullShare} W (Proc.devRef .tc main_v1))
          ∗ (((c : Thread nD τ).loc main_v2) ↦{fullShare} W (Proc.devRef .tc main_v2))) := by
  unfold StableHlo.held S1
  rw [bigSep_insert (by rw [Finset.mem_singleton]; exact StableHlo.devRef_ne_of_ne (by decide)), bigSep_singleton]
  rfl

variable (dats : (p : Fin 1) → (c : Dev nD) → Dat τ (Elt F) Unit ℕ (UR sig nD τ) ℕ cfg0 c)

/-- Core `c`'s buffers when the region is left: the output array at what the pipeline wrote, the rest as entered. -/
def V2 (c : Dev nD) : Valuation τ sig (Elt F) :=
  Function.update (V0 m c) (Proc.devRef .tc main_v1) ((dats 0 c).arrAt 4 cfg0.N)

theorem V2_v1 (c : Dev nD) : V2 m dats c (Proc.devRef .tc main_v1) = (dats 0 c).arrAt 4 cfg0.N := by
  unfold V2; rw [Function.update_self]

theorem V2_v2 (c : Dev nD) : V2 m dats c (Proc.devRef .tc main_v2) = V m c main_v2 := by
  unfold V2; rw [Function.update_of_ne (StableHlo.devRef_ne_of_ne (by decide))]

/-- The arguments' buffers, the region's inputs, as they bypass the reshape after it: the first argument whole, of
    the twice-read second one half, the third whole, each at its entry contents. -/
abbrev Args (c : Dev nD) : sProp 𝕄 :=
  iprop((((c : Thread nD τ).loc main_arg0) ↦{fullShare} V m c main_arg0)
    ∗ (((c : Thread nD τ).loc main_arg1) ↦{fullShare.left} V m c main_arg1)
    ∗ (((c : Thread nD τ).loc main_arg2) ↦{fullShare} V m c main_arg2))

/-- What bypasses the region: the unscoped buffers that are no window's array. -/
abbrev Zc (c : Dev nD) : sProp 𝕄 :=
  iprop((((c : Thread nD τ).loc main_arg0) ↦{fullShare} V m c main_arg0) ∗ (((c : Thread nD τ).loc main_v2) ↦{fullShare} V m c main_v2))

/-! ## The region's entry and exit -/

/-- ENTRY: the unscoped buffers at their entry contents are the pipeline's arrays — the twice-read array's whole
    share split into its two halves, one per window on it — and the two buffers that bypass the region. -/
theorem entry0 (c : Dev nD) (hA : ∀ w, (dats 0 c).A w = V m c (Pipeline.arrRef spec0 w))
    (hq0 : (dats 0 c).q 0 = fullShare) (hq1 : (dats 0 c).q 1 = fullShare.left)
    (hq2 : (dats 0 c).q 2 = fullShare.right) (hq3 : (dats 0 c).q 3 = fullShare) :
    (StableHlo.held (c : Thread nD τ) (Pipeline.ucRefs τ sig) (V0 m c) : sProp 𝕄)
      ⊢ iprop((dats 0 c).arrays ((dats 0 c).arrAt · 0) ∗ Zc m c) := by
  rw [← Pipeline.unscopedBufs_held (Ix := Unit) (Name := ℕ) (U := UR sig nD τ) (Lvl := ℕ) c (V0 m c),
    Pipeline.unscopedBufs_split₀ cfgs 0 winFacts₀0.arr_unscoped c, arrBufs0_eq, unscopedRest0_eq,
    arrays0_eq (dats 0 c) hq0 hq1 hq2 hq3]
  simp only [show ∀ w, (dats 0 c).arrAt w 0 = (dats 0 c).A w from fun _ => rfl, hA]
  iintro ⟨⟨H0, H1, H3, H4⟩, HZ⟩
  ihave H1' := (pointsTo_share (PosShare.mem_left_op_right fullShare)).1 $$ H1
  icases H1' with ⟨H1, H2⟩
  isplitr [HZ]
  · isplitl [H0]; · iexact H0
    isplitl [H1]; · iexact H1
    isplitl [H2]; · iexact H2
    isplitl [H3]; · iexact H3
    iexact H4
  · iexact HZ

/-- EXIT: the arrays as the pipeline leaves them — an input's as it was entered, for an input array is never
    written — and the bypassing buffers are the two buffers of the reshape after the region, beside the arguments. -/
theorem exit0 (c : Dev nD) (hA : ∀ w, (dats 0 c).A w = V m c (Pipeline.arrRef spec0 w))
    (hq0 : (dats 0 c).q 0 = fullShare) (hq1 : (dats 0 c).q 1 = fullShare.left)
    (hq2 : (dats 0 c).q 2 = fullShare.right) (hq3 : (dats 0 c).q 3 = fullShare) :
    iprop((dats 0 c).arrays ((dats 0 c).arrAt · cfg0.N) ∗ Zc m c)
      ⊢ (iprop(StableHlo.held (c : Thread nD τ) S1 (V2 m dats c) ∗ Args m c) : sProp 𝕄) := by
  rw [arrays0_eq (dats 0 c) hq0 hq1 hq2 hq3, held_S1, V2_v1, V2_v2]
  simp only [(dats 0 c).arrAt_in 1 rfl, (dats 0 c).arrAt_in 3 rfl, hA]
  iintro ⟨⟨-, H1, -, H3, H4⟩, Ha0, Hv2⟩
  isplitl [H4 Hv2]
  · isplitl [H4]; · iexact H4
    iexact Hv2
  · isplitl [Ha0]; · iexact Ha0
    isplitl [H1]; · iexact H1
    iexact H3

/-! ## @main as segments -/

/-- THE HOST SEGMENT BEFORE THE REGION: the grouping reshape, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (fun c b => m (c, b)) R₀

/-- THE HOST SEGMENT AFTER THE REGION: the ungrouping reshape, over its two buffers; the arguments ride along. -/
def seg1 : Pipeline.HostSeg (Name := ℕ) (U := UR sig nD τ) (pcfgs (F := F)) defs₀ 𝒱₀ L lv :=
  Pipeline.HostSeg.ofOps _ _ _ _ _ S1 hostOps1
    (by intro _ h; (repeat (cases h with | head => exact Finset.Subset.refl _ | tail _ h => ?_)); exact nomatch h)
    (by intro _ h; (repeat (cases h with | head => rfl | tail _ h => ?_)); exact nomatch h) (V2 m dats)
    (fun c => iprop(Args m c ∗ R c))

/-- The core's account at the region's entry: it owes nothing, and no recorded wait is within any bound. -/
theorem owes_in (c : Dev nD) (howed : ∀ t, (dats 0 c).owed t = 0) : (R₀ c : sProp 𝕄) ⊢ (dats 0 c).owesAt () 0 := by
  unfold Dat.owesAt Pipeline.owesWithin; rw [howed 0]
  iintro HO; iexists ∅; isplitr; · ipureintro; simp
  iexact HO

/-- At its exit: it owes nothing still. -/
theorem owes_out (c : Dev nD) (howed : ∀ t, (dats 0 c).owed t = 0) : (dats 0 c).owesAt () (Fin.last cfg0.N) ⊢ (R c : sProp 𝕄) := by
  unfold Dat.owesAt Pipeline.owesWithin; rw [howed]
  iintro ⟨%W, -, HO⟩; iexists W; iexact HO

set_option backward.isDefEq.respectTransparency.types false in
/-- THE REGION: the layout, no semaphore of the kernel's own, the body obligation; entered from what the first
    reshape left — the four buffers behind the five windows into the pipeline, the twice-read one by halves, the
    first argument and the result's buffer bypassing —, left with the output array as written and the inputs'
    as entered, sorted for the second reshape. -/
def reg0 (hA : ∀ c w, (dats 0 c).A w = V m c (Pipeline.arrRef spec0 w))
    (hq0 : ∀ c, (dats 0 c).q 0 = fullShare) (hq1 : ∀ c, (dats 0 c).q 1 = fullShare.left)
    (hq2 : ∀ c, (dats 0 c).q 2 = fullShare.right) (hq3 : ∀ c, (dats 0 c).q 3 = fullShare)
    (howed : ∀ c t, (dats 0 c).owed t = 0)
    (hbody : ∀ c, BodyObligation (dats 0 c) (defs₀ (F := F)) Variants.none () Set.univ)
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (V0 m c) ∗ R₀ c)
  post c := iprop(StableHlo.held (c : Thread nD τ) S1 (V2 m dats c) ∗ Args m c ∗ R c)
  X c := iprop(emp)
  Y c := iprop(emp)
  Z c := Zc m c
  hentry c := by
    iintro ⟨⟨Hh, HO⟩, -, -⟩
    ihave H := (entry0 m dats c (hA c) (hq0 c) (hq1 c) (hq2 c) (hq3 c)) $$ Hh
    icases H with ⟨Ha, HZ⟩
    ihave HO' := (owes_in dats c (howed c)) $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitr; · iempintro
    iexact HZ
  hin c := by
    iintro ⟨-, -, Hr⟩
    iapply (hin c); iexact Hr
  hout c := by
    rw [Pipeline.ownSems0_none]
    iintro H
    isplitr; · iempintro
    isplitr; · iempintro
    iapply (hout c); iexact H
  hexit c := by
    iintro ⟨Ha, HO, -, HZ⟩
    ihave H := (exit0 m dats c (hA c) (hq0 c) (hq1 c) (hq2 c) (hq3 c)) $$ [Ha HZ]
    · isplitl [Ha] <;> iassumption
    icases H with ⟨Hh, Hargs⟩
    ihave HO' := (owes_out dats c (howed c)) $$ HO
    imodintro
    isplitl [Hh]; · iexact Hh
    isplitl [Hargs]; · iexact Hargs
    iexact HO'

/-! ## What the reshapes leave alone, and what the second one writes -/

/-- The first reshape writes `main_v0` alone. -/
theorem not_written0 (b : Ref sig .tc) (hb : b ≠ main_v0) :
    ∀ op ∈ (hostOps0 (F := F)), Proc.devRef (τ := τ) .tc b ∉ op.writes := by
  intro op hop
  simp only [List.mem_cons, List.mem_nil_iff, or_false] at hop
  subst hop
  simp only [StableHlo.reshape_writes, Finset.mem_singleton]
  exact StableHlo.devRef_ne_of_ne hb

/-- Every other buffer enters the region as launched. -/
theorem V_of_ne (c : Dev nD) (b : Ref sig .tc) (hb : b ≠ main_v0) : V m c b = m ((c : Thread nD τ).loc b) :=
  StableHlo.after_of_forall_not_mem (b := Proc.devRef .tc b) hostOps0 (fun b => m (c, b)) (not_written0 b hb)

/-- The second reshape leaves in `main_v2` the output array, regrouped. -/
theorem after1_v2 (c : Dev nD) :
    StableHlo.after hostOps1 (V2 m dats c) (Proc.devRef .tc main_v2)
      = shapeCast S8192x2048 ((dats 0 c).arrAt 4 cfg0.N) shapeCasts_S8x1024x2048_S8192x2048 := by
  simp only [StableHlo.after_cons, StableHlo.after_nil]
  rw [StableHlo.reshape_result, V2_v1]
  rfl

/-! ## The launch -/

set_option backward.isDefEq.respectTransparency.types false in
/-- The launch, for any proof data of the pipeline whose arrays are the region-entry contents, whose shares of the
    twice-read array are the two halves, that owes nothing, whose invariant starts from and gives back the scoped
    rest: every weakly fair execution of @main terminates, the result holding the output array as the pipeline's
    write-backs leave it, regrouped, and the three arguments as launched. -/
theorem run_of
    (hA : ∀ c w, (dats 0 c).A w = V m c (Pipeline.arrRef spec0 w))
    (hq0 : ∀ c, (dats 0 c).q 0 = fullShare) (hq1 : ∀ c, (dats 0 c).q 1 = fullShare.left)
    (hq2 : ∀ c, (dats 0 c).q 2 = fullShare.right) (hq3 : ∀ c, (dats 0 c).q 3 = fullShare)
    (howed : ∀ c t, (dats 0 c).owed t = 0)
    (hbody : ∀ c, BodyObligation (dats 0 c) (defs₀ (F := F)) Variants.none () Set.univ)
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run defs (onTc (τ := τ) (main (F := F))) ⟨m, fun _ => 0, ρ⟩ (fun r => ∀ c : Dev nD,
      r.2.mem ((c.tc : Thread nD τ).loc main_v2)
          = shapeCast S8192x2048 ((dats 0 c).arrAt 4 cfg0.N) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm dats () cellOf_inj emb₁ defs₀ 𝒱₀ L lv m ρ main
    [.host (seg0 m), .region (reg0 m dats hA hq0 hq1 hq2 hq3 howed hbody hin hout), .host (seg1 m dats)]
    (fun c Q => by rw [main_segs adm dats () 𝒱₀ L lv (seg0 m) (seg1 m dats) (reg0 m dats hA hq0 hq1 hq2 hq3 howed hbody hin hout) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R₀ c))
    (Tₙ := fun c => iprop(StableHlo.held (c : Thread nD τ) S1 (StableHlo.after hostOps1 (V2 m dats c)) ∗ Args m c))
    (hch := ⟨fun _ => .rfl, fun _ => .rfl, fun _ => .rfl, fun c => by
      show iprop(StableHlo.held (c : Thread nD τ) S1 (StableHlo.after hostOps1 (V2 m dats c)) ∗ Args m c ∗ R c) ⊢ _
      iintro ⟨Hh, Ha, HO⟩
      isplitr [HO]
      · isplitl [Hh]; · iexact Hh
        iexact Ha
      · iexact HO⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, -, -⟩, -⟩
      imodintro
      isplitl [Hh]; · iexact Hh
      iexact HO)
    (QY := fun c s => s.mem ((c.tc : Thread nD τ).loc main_v2)
          = shapeCast S8192x2048 ((dats 0 c).arrAt 4 cfg0.N) shapeCasts_S8x1024x2048_S8192x2048
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      rw [held_S1, after1_v2]; unfold Args
      rw [V_of_ne m c main_arg0 (by decide), V_of_ne m c main_arg1 (by decide), V_of_ne m c main_arg2 (by decide)]
      iintro ⟨⟨⟨-, Hv2⟩, Ha0, Ha1, Ha2⟩, HSI⟩
      icombine HSI Hv2 gives %h2
      icombine HSI Ha0 gives %h0
      icombine HSI Ha1 gives %h1
      icombine HSI Ha2 gives %h3
      imodintro
      isplitr
      · ipureintro
        exact ⟨Buf.eq_of_forall_mem_univ h2, Buf.eq_of_forall_mem_univ h0, Buf.eq_of_forall_mem_univ h1, Buf.eq_of_forall_mem_univ h3⟩
      iexact HSI)
    (hQ := fun _ h => h)

/-- info: 'Cert.KernelIdeal.Hand.run_of' depends on axioms: [propext, Classical.choice, Quot.sound] -/
#guard_msgs in #print axioms run_of

end Cert.KernelIdeal.Hand

end
-- ==== Proof.KIRunA.lean ====
/-
  The kernel body run whole in the case of an expert's FIRST tile: on whole staging memrefs holding the input blocks, the
  output block's buffer and the accumulator, the body terminates and leaves the inputs as they were and what its
  stores wrote, as a list of pieces (last write first) that the run itself finds.
-/
import proofs.«136953_j71640054497665_1_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first tile of an expert: the accumulator, whatever it held, is cleared and then receives this tile's
    contribution; the output block's buffer is handed back untouched. -/
noncomputable def kernelRun0_A (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x128 .f32) (x2 : Vec F S1x2048x128 .f32) (x3 : Vec F S1x128x2048 .f32) :
    { LS0 : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__moe_expert_kernel i arg2 harg2 arg3 harg3 arg4 harg4 arg5 harg5 arg6 harg6 arg7 harg7) K } := by
  refine ⟨?_, fun xi4 E K => ?run⟩
  case run =>
    simp only [cc0__moe_expert_kernel_eq_skeleton]; unfold cc0__moe_expert_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KIRunB.lean ====
/-
  The kernel body run whole in the case of a MIDDLE tile: on whole staging memrefs holding the input blocks, the
  output block's buffer and the accumulator, the body terminates and leaves the inputs as they were and what its
  stores wrote, as a list of pieces (last write first) that the run itself finds.
-/
import proofs.«136953_j71640054497665_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A middle tile: the accumulator, at what the tile before left (`xs0`), receives this tile's contribution; the
    output block's buffer is handed back untouched. -/
noncomputable def kernelRun0_B (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x128 .f32) (x2 : Vec F S1x2048x128 .f32) (x3 : Vec F S1x128x2048 .f32) (xs0 : Vec F S1024x2048 .f32) :
    { LS0 : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__moe_expert_kernel i arg2 harg2 arg3 harg3 arg4 harg4 arg5 harg5 arg6 harg6 arg7 harg7) K } := by
  refine ⟨?_, fun xi4 E K => ?run⟩
  case run =>
    simp only [cc0__moe_expert_kernel_eq_skeleton]; unfold cc0__moe_expert_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KIRunC.lean ====
/-
  The kernel body run whole in the case of an expert's LAST tile: on whole staging memrefs holding the input blocks, the
  output block's buffer and the accumulator, the body terminates and leaves the inputs as they were and what its
  stores wrote, as a list of pieces (last write first) that the run itself finds.
-/
import proofs.«136953_j71640054497665_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- An expert's last tile: the accumulator, at what the tile before left (`xs0`), receives this tile's
    contribution and is then copied into the output block's buffer, whatever that held. -/
noncomputable def kernelRun0_C (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) :
    Σ' (L4 : List (View.Piece (Elt F) S1x1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__moe_expert_kernel i arg2 harg2 arg3 harg3 arg4 harg4 arg5 harg5 arg6 harg6 arg7 harg7) K } := by
  refine ⟨?_, ?_, fun E K => ?run⟩
  case run =>
    simp only [cc0__moe_expert_kernel_eq_skeleton]; unfold cc0__moe_expert_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.KernelIdeal.Hand

end
-- ==== Proof.KIFrame.lean ====
/-
  The pipeline's proof data and the body obligation.

  What the accumulator holds after each grid point is defined by recursion on the point: at an expert's first tile
  the body's two stores (the clearing, then this tile's contribution over it) read back; at a later tile its one
  store over what the tile before left. The output block's buffer is named only at an expert's last tile, where the
  body copies the accumulator into it; elsewhere the window is idle and nothing consults it.

  The invariant between points is the accumulator owned at exactly those contents (before the very first point: at
  anything, since the first tile clears it). With that, the body obligation at a point is the run of the point's
  case.
-/
import proofs.«136953_j71640054497665_1_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first tile's two stores into the accumulator tile it. -/
theorem scover0_A_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x128 .f32) (x2 : Vec F S1x2048x128 .f32) (x3 : Vec F S1x128x2048 .f32) (y : S1024x2048.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1024x2048.size (by sl_kernel_rfl) y

/-- What the first tile leaves in the accumulator: its stores read back. -/
def sout0_A_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x128 .f32) (x2 : Vec F S1x2048x128 .f32) (x3 : Vec F S1x128x2048 .f32) : Vec F S1024x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

/-- A middle tile's store into the accumulator covers it. -/
theorem scover0_B_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x128 .f32) (x2 : Vec F S1x2048x128 .f32) (x3 : Vec F S1x128x2048 .f32) (xs0 : Vec F S1024x2048 .f32) (y : S1024x2048.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S1024x2048.size (by sl_kernel_rfl) y

/-- What a middle tile leaves in the accumulator. -/
def sout0_B_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x128 .f32) (x2 : Vec F S1x2048x128 .f32) (x3 : Vec F S1x128x2048 .f32) (xs0 : Vec F S1024x2048 .f32) : Vec F S1024x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

/-- The last tile's store into the output block's buffer covers it. -/
theorem cover0_C_4 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) (y : S1x1024x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1024x2048.size (by sl_kernel_rfl) y

/-- What the last tile leaves in the output block's buffer. -/
def out0_C_4 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) : Vec F S1x1024x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The last tile's store into the accumulator covers it. -/
theorem scover0_C_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) (y : S1024x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x2048.size (by sl_kernel_rfl) y

/-- What the last tile leaves in the accumulator. -/
def sout0_C_0 (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) : Vec F S1024x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- A stand-in for the output block's buffer at a point idle for it: nothing consults it. -/
def idleOut : Vec F S1x1024x2048 .f32 := VO0_4.read (Elt F) VO0_4.junk

/-! ## Point by point -/

/-- After the body at position `n`: the output block's buffer and the accumulator. -/
def outsAt0 (c : Dev nD) : (n : ℕ) → n < cfg0.N → Vec F S1x1024x2048 .f32 × Vec F S1024x2048 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 32 = 0 then
      (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 32 = 31 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At an expert's first tile. -/
theorem outsAt0_A (c : Dev nD) (t : Fin cfg0.N) (h0 : t.val % 32 = 0) :
    outsAt0 m c t.val t.isLt = (idleOut, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => (fun h => by omega) ((hcond0_1 t).mp h)) (iblk m c 0 t) (iblk m c 1 t) (iblk m c 2 t) (iblk m c 3 t)) := by
  obtain ⟨n, hn⟩ := t
  cases n with
  | zero => exact rfl
  | succ n => exact (dif_pos h0).trans rfl

/-- At a middle tile: over what the point before left. -/
theorem outsAt0_B (c : Dev nD) (t : Fin cfg0.N) (h0 : ¬t.val % 32 = 0) (h1 : ¬t.val % 32 = 31) :
    outsAt0 m c t.val t.isLt = (idleOut, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At an expert's last tile: over what the point before left. -/
theorem outsAt0_C (c : Dev nD) (t : Fin cfg0.N) (h0 : ¬t.val % 32 = 0) (h1 : t.val % 32 = 31) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator at anything; afterwards at what the
    point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the region finds them; after the body each input's buffer at its block and the output's at
    `outsAt0`; the accumulator's invariant; nothing owed; the array the gate and the up window both read held in two
    halves, everything else whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the tile number says which case the point is in;
    the invariant hands the body the accumulator at what the point before left (at anything before the first point)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0_0, leaves0_1, leaves0_2, leaves0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 32 = 0
  · have h1 : ¬t.val % 32 = 31 := by omega
    have hc0 : cond0_0 (grid0.coords t) := (hcond0_0 t).mpr h0
    have hc1 : ¬cond0_1 (grid0.coords t) := fun h => h1 ((hcond0_1 t).mp h)
    rw [Dat.leavesExact_idle (dats m 0 c) 4 t (idleAt0_4 t hc1) (noFlush0_4 t hc1)]
    rw [outsAt0_A m c t h0]
    unfold sout0_A_0; (try dsimp only)
    have hrun := (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) hc0 (fun h => (fun h => by omega) ((hcond0_1 t).mp h)) (iblk m c 0 t) (iblk m c 1 t) (iblk m c 2 t) (iblk m c 3 t)).2
    by_cases hz : t.val = 0
    · rw [PhiS_castSucc m c t, PhiS_zero m c _ _ hz, scopedRest0_owns]
      iintro ⟨HS0, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0_0 (grid0.coords t) := fun h => h0 ((hcond0_0 t).mp h)
    by_cases h1 : t.val % 32 = 31
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [outsAt0_C m c t h0 h1]
      unfold out0_C_4 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · have hc1 : ¬cond0_1 (grid0.coords t) := fun h => h1 ((hcond0_1 t).mp h)
      rw [Dat.leavesExact_idle (dats m 0 c) 4 t (idleAt0_4 t hc1) (noFlush0_4 t hc1)]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- The scoped rest is the invariant before the first point, -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- and after the last point the invariant gives it back: the accumulator's contents are forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  have hN : cfg0.N = 256 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), scopedRest0_owns]
  iintro HS0
  iexists _; iexact HS0

end Cert.KernelIdeal.Hand

end
-- ==== Proof.KIMain.lean ====
/-
  The idealized kernel program's run, for any float instance: every weakly fair execution of @main terminates,
  nothing faults, the result array holds the flattening of what the pipeline wrote back block by block, and the three
  argument arrays end as they began. The launch is `run_of`, instantiated at the accumulator's proof data.
-/
import proofs.«136953_j71640054497665_1_alg».proof.Proof.KILaunch
import proofs.«136953_j71640054497665_1_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with the result named through the proof data's final output array. -/
theorem run_main : θ_run defs (onTc (τ := τ) (main (F := F))) ⟨m, fun _ => 0, ρ⟩ (fun r => ∀ c : Dev nD,
      r.2.mem ((c.tc : Thread nD τ).loc main_v2)
          = shapeCast S8192x2048 ((dats m 0 c).arrAt 4 cfg0.N) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ (dats m) (A_eq m) (fun _ => rfl) (fun _ => rfl) (fun _ => rfl) (fun _ => rfl) (fun _ _ => rfl)
    (body_obligation m) (hin m) (hout m)

/-- The frame: the program runs to the end and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.LibDotAxes.lean ====
/-
  The four coordinate facts of a rank-2 by rank-2 dimension record that contracts the left operand's columns with the
  right operand's rows and has no batch axis, from the record's six axis lists.

  For such a record the left operand is read at (output row, contraction index) and the right operand at
  (contraction index, output column); the contraction shape has one axis, of the shared extent. A literal record
  gives the six list equations by computation, and these lemmas turn them into the hypotheses a matrix product read
  at an index asks for.
-/
import Idealize.ShloMosaic.PureOps.Dims

namespace Cert.LibDotAxes

open Idealize.ShloMosaic

variable {M K N : Nat} (D : DotDims ⟨2, ![M, K]⟩ ⟨2, ![K, N]⟩ ⟨2, ![M, N]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) (h : 0 < D.contr.rank) : D.contr.size ⟨0, h⟩ = K := by
  have h0 : 0 < D.lhsContracting.length := by rw [hlc]; exact Nat.one_pos
  rw [D.size_contr 0 h0]
  have e : D.lhsContracting[0]'h0 = (1 : Fin 2) := by simp [hlc]
  rw [e]; rfl

private theorem val_congr {n : Nat} {sz : Fin n → Nat} (i : (a : Fin n) → Fin (sz a)) :
    ∀ (p q : Nat) (hp : p < n) (hq : q < n), p = q → (i ⟨p, hp⟩).val = (i ⟨q, hq⟩).val :=
  fun p q hp hq h => by subst h; rfl

/-- The left operand's row coordinate is the output's row. -/
theorem lhs_row (hlb : D.lhsBatch = []) (hln : D.lhsNonContracting = [0])
    (i : (⟨2, ![M, N]⟩ : Shape).Idx) (q : D.contr.Idx) : (D.lhsIdx i q 0).val = (i 0).val := by
  have h1 : (0 : Fin 2) ∉ D.lhsBatch := by rw [hlb]; exact List.not_mem_nil
  have h2 : (0 : Fin 2) ∈ D.lhsNonContracting := by rw [hln]; exact List.mem_singleton.mpr rfl
  unfold DotDims.lhsIdx
  rw [dif_neg h1, dif_pos h2]
  simp only [Fin.val_cast]
  exact val_congr i _ _ _ _ (by simp [hlb, hln])

/-- The left operand's column coordinate is the contraction index. -/
theorem lhs_col (hlc : D.lhsContracting = [1]) (i : (⟨2, ![M, N]⟩ : Shape).Idx) (q : D.contr.Idx)
    (h : 0 < D.contr.rank) : (D.lhsIdx i q 1).val = (q ⟨0, h⟩).val :=
  D.lhsIdx_val_of_single hlc i q

/-- The right operand's row coordinate is the contraction index. -/
theorem rhs_row (hrc : D.rhsContracting = [0]) (i : (⟨2, ![M, N]⟩ : Shape).Idx) (q : D.contr.Idx)
    (h : 0 < D.contr.rank) : (D.rhsIdx i q 0).val = (q ⟨0, h⟩).val :=
  D.rhsIdx_val_of_single hrc i q

/-- The right operand's column coordinate is the output's column. -/
theorem rhs_col (hlb : D.lhsBatch = []) (hln : D.lhsNonContracting = [0]) (hrb : D.rhsBatch = [])
    (hrn : D.rhsNonContracting = [1]) (i : (⟨2, ![M, N]⟩ : Shape).Idx) (q : D.contr.Idx) :
    (D.rhsIdx i q 1).val = (i 1).val := by
  have h1 : (1 : Fin 2) ∉ D.rhsBatch := by rw [hrb]; exact List.not_mem_nil
  have h2 : (1 : Fin 2) ∈ D.rhsNonContracting := by rw [hrn]; exact List.mem_singleton.mpr rfl
  unfold DotDims.rhsIdx
  rw [dif_neg h1, dif_pos h2]
  simp only [Fin.val_cast]
  exact val_congr i _ _ _ _ (by simp [hlb, hln, hrn])

end Cert.LibDotAxes
-- ==== Proof.KIPayload.lean ====
/-
  The kernel body's arithmetic read at an index, at the ideal values (a float an extended real, every operation exact,
  a change of format the identity).

  One grid step multiplies the [1024, 2048] token block x by a gate tile and an up tile of [2048, 128] columns, forms
  the gated activation  up · (gate · logistic gate)  lane by lane, multiplies that [1024, 128] tile by the matching
  [128, 2048] tile of the down weights and adds the product to the accumulator. Read at (p, q) the stored value is

      acc (p, q) + Σⱼ act (p, j) · down (j, q),      act (p, j) = (x·up)(p, j) · ((x·gate)(p, j) · logistic ((x·gate)(p, j))),

  with each projection the plain sum over the 2048 features. The first step stores the zero block and the last one
  copies the accumulator out with a unit axis in front.
-/
import proofs.«136953_j71640054497665_1_alg».proof.Proof.Gen.KernelIdeal.Skeleton
import proofs.«136953_j71640054497665_1_alg».proof.Proof.LibMatmul2
import proofs.«136953_j71640054497665_1_alg».proof.Proof.LibDotAxes
import Idealize.ShloMosaic.Lib.ValueIdx
import Idealize.ShloMosaic.Lib.ValueLayout
import Idealize.ShloMosaic.PureOps.Ideal.Laws

noncomputable section

namespace Cert.KernelIdeal.PayValue
open Idealize.ShloMosaic Idealize.ShloMosaic.ValueIdx Cert.KernelIdeal Cert.KernelIdeal.Gen
open scoped BigOperators

/-- One tile of a projection: row p of the token block against column j of a [2048,128] weight tile. -/
def tproj (x : Vec Ideal S1x1024x2048 .f32) (w : Vec Ideal S1x2048x128 .f32) (p : Fin 1024) (j : Fin 128) : EReal :=
  ∑ k : Fin 2048, x (ix3 0 p k) * w (ix3 0 k j)

/-- The gated activation of one tile. -/
def tact (x : Vec Ideal S1x1024x2048 .f32) (wg wu : Vec Ideal S1x2048x128 .f32) (p : Fin 1024) (j : Fin 128) : EReal :=
  tproj x wu p j * (tproj x wg p j * Ideal.logistic (tproj x wg p j))

/-! ## The layout operations at an index -/

/-- A [1, a, b] block with its unit axis dropped and then narrowed (the identity on extended reals) reads, at (i, j),
    the block at (0, i, j). -/
theorem narrow_drop_apply {a b : ℕ} (x : FVec Ideal ⟨3, ![1, a, b]⟩ .f32)
    (h : (⟨3, ![1, a, b]⟩ : Shape).ShapeCasts ⟨2, ![a, b]⟩) (hb : FTy.bits .bf16 < FTy.bits .f32) (i : Fin a) (j : Fin b) :
    (truncf .bf16 (shapeCast ⟨2, ![a, b]⟩ x h) hb : FVec Ideal ⟨2, ![a, b]⟩ .bf16) (ix2 i j) = x (ix3 (0 : Fin 1) i j) :=
  shapeCast_1ab_ab_apply x h i j

/-! ## The two matrix products at an index -/

/-- The token block against a [2048, 128] tile, into the zero accumulator: at (p, j) the sum over the 2048 features. -/
theorem matmul_up_apply (a : FVec Ideal S1024x2048 .bf16) (b : FVec Ideal S2048x128 .bf16) (p : Fin 1024) (j : Fin 128) :
    matmul dot_S1024x2048_S2048x128_S1024x128_1_0_0_1_n_n none a b (constant S1024x128 .f32 0x00000000#32) (ix2 p j)
      = ∑ k : Fin 2048, a (ix2 p k) * b (ix2 k j) :=
  LibMatmul2.matmul_zero_apply (M := 1024) (K := 2048) (N := 128) dot_S1024x2048_S2048x128_S1024x128_1_0_0_1_n_n
    (LibDotAxes.contr_rank _ rfl) (LibDotAxes.contr_size _ rfl _)
    (LibDotAxes.lhs_row _ rfl rfl) (fun i q => LibDotAxes.lhs_col _ rfl i q _)
    (fun i q => LibDotAxes.rhs_row _ rfl i q _) (LibDotAxes.rhs_col _ rfl rfl rfl rfl) a b p j

/-- The activation tile against a [128, 2048] tile, into the zero accumulator: at (p, q) the sum over the 128 columns. -/
theorem matmul_down_apply (a : FVec Ideal S1024x128 .bf16) (b : FVec Ideal S128x2048 .bf16) (p : Fin 1024) (q : Fin 2048) :
    matmul dot_S1024x128_S128x2048_S1024x2048_1_0_0_1_n_n none a b (constant S1024x2048 .f32 0x00000000#32) (ix2 p q)
      = ∑ j : Fin 128, a (ix2 p j) * b (ix2 j q) :=
  LibMatmul2.matmul_zero_apply (M := 1024) (K := 128) (N := 2048) dot_S1024x128_S128x2048_S1024x2048_1_0_0_1_n_n
    (LibDotAxes.contr_rank _ rfl) (LibDotAxes.contr_size _ rfl _)
    (LibDotAxes.lhs_row _ rfl rfl) (fun i q => LibDotAxes.lhs_col _ rfl i q _)
    (fun i q => LibDotAxes.rhs_row _ rfl i q _) (LibDotAxes.rhs_col _ rfl rfl rfl rfl) a b p q

/-! ## The kernel's projection and activation tiles -/

/-- The token block times one [2048, 128] weight tile as the body computes it: both operands with their unit axis
    dropped and narrowed, multiplied into the zero accumulator. -/
def kproj (x : Vec Ideal S1x1024x2048 .f32) (w : Vec Ideal S1x2048x128 .f32) : FVec Ideal S1024x128 .f32 :=
  matmul dot_S1024x2048_S2048x128_S1024x128_1_0_0_1_n_n none
    (truncf .bf16 (shapeCast S1024x2048 x shapeCasts_S1x1024x2048_S1024x2048) bitsLt_bf16_f32)
    (truncf .bf16 (shapeCast S2048x128 w shapeCasts_S1x2048x128_S2048x128) bitsLt_bf16_f32)
    (constant S1024x128 .f32 0x00000000#32)

/-- At (p, j) it is row p of the block against column j of the tile. -/
theorem kproj_apply (x : Vec Ideal S1x1024x2048 .f32) (w : Vec Ideal S1x2048x128 .f32) (p : Fin 1024) (j : Fin 128) :
    kproj x w (ix2 p j) = tproj x w p j := by
  unfold kproj
  refine (matmul_up_apply _ _ p j).trans ?_
  exact Finset.sum_congr rfl fun k _ =>
    congrArg₂ (· * ·) (narrow_drop_apply x _ _ p k) (narrow_drop_apply w _ _ k j)

/-- The gated activation tile as the body computes it: up · (gate · logistic gate), lane by lane, narrowed. -/
def kact (x : Vec Ideal S1x1024x2048 .f32) (wg wu : Vec Ideal S1x2048x128 .f32) : FVec Ideal S1024x128 .bf16 :=
  truncf .bf16 (mulf (kproj x wu) (mulf (kproj x wg) (logistic (kproj x wg)))) bitsLt_bf16_f32

/-- At (p, j) it is the gated activation of the two projections there. -/
theorem kact_apply (x : Vec Ideal S1x1024x2048 .f32) (wg wu : Vec Ideal S1x2048x128 .f32) (p : Fin 1024) (j : Fin 128) :
    kact x wg wu (ix2 p j) = tact x wg wu p j := by
  show kproj x wu (ix2 p j) * (kproj x wg (ix2 p j) * Ideal.logistic (kproj x wg (ix2 p j))) = _
  rw [kproj_apply, kproj_apply]
  rfl

/-! ## The three stored values at an index -/

/-- The value stored on the first reduction step is the zero block. -/
theorem pay1_apply (i : S1024x2048.Idx) : k0_pay1 (F := Ideal) i = 0 := by
  unfold k0_pay1
  refine (congrFun (shapeCast_self _ _) i).trans ?_
  exact Ideal.ofBits_zero_f32

/-- The value stored on every reduction step: the accumulator plus the activation tile against the down tile. -/
theorem pay2_apply (v3 : Vec Ideal S1x1024x2048 .f32) (v6 v9 : Vec Ideal S1x2048x128 .f32) (v18 : Vec Ideal S1x128x2048 .f32)
    (v21 : Vec Ideal S1024x2048 .f32) (p : Fin 1024) (q : Fin 2048) :
    k0_pay2 (F := Ideal) v3 v6 v9 v18 v21 (ix2 p q) = v21 (ix2 p q) + ∑ j : Fin 128, tact v3 v6 v9 p j * v18 (ix3 0 j q) := by
  have e : k0_pay2 (F := Ideal) v3 v6 v9 v18 v21 = shapeCast S1024x2048 (addf v21
      (matmul dot_S1024x128_S128x2048_S1024x2048_1_0_0_1_n_n none (kact v3 v6 v9)
        (truncf .bf16 (shapeCast S128x2048 v18 shapeCasts_S1x128x2048_S128x2048) bitsLt_bf16_f32)
        (constant S1024x2048 .f32 0x00000000#32))) shapeCasts_S1024x2048_S1024x2048 := rfl
  rw [e]
  refine (congrFun (shapeCast_self _ _) _).trans ?_
  refine (addf_apply _ _ _).trans ?_
  refine congrArg (v21 (ix2 p q) + ·) ?_
  refine (matmul_down_apply _ _ p q).trans ?_
  exact Finset.sum_congr rfl fun j _ =>
    congrArg₂ (· * ·) (kact_apply v3 v6 v9 p j) (narrow_drop_apply v18 _ _ j q)

/-- The value stored on the last reduction step: the accumulator with a unit axis put in front. -/
theorem pay3_apply (v30 : Vec Ideal S1024x2048 .f32) (p : Fin 1024) (q : Fin 2048) :
    k0_pay3 (F := Ideal) v30 (ix3 0 p q) = v30 (ix2 p q) := by
  unfold k0_pay3
  exact shapeCast_ab_1ab_apply v30 _ 0 p q

end Cert.KernelIdeal.PayValue

end
-- ==== Proof.Spec.lean ====
/-
  The mathematics both programs compute, stated once over literal shapes, with no program in sight.

  A mixture-of-experts feed-forward layer with a gated (SwiGLU) activation. For expert `n`, token row `r` and
  hidden column `h`, with `x` the tokens grouped by expert ([8, 1024, 2048]), `gu` the fused gate/up projection
  ([8, 2048, 8192]: columns 0..4095 the gate, 4096..8191 the up projection) and `dn` the down projection
  ([8, 4096, 2048]):

      proj n r j = Σ_k x[n, r, k] · gu[n, k, j]
      act  n r f = proj n r (4096 + f) · (proj n r f · σ(proj n r f))          (σ the logistic function)
      out  n r h = Σ_{f < 4096} act n r f · dn[n, f, h]

  Everything is read on the extended reals; only commutativity and associativity of the sums are ever used, so no
  finiteness of the inputs is needed.
-/
import Idealize.ShloMosaic.PureOps.Ideal
import Idealize.ShloMosaic.Lib.ValueIdx

noncomputable section

open scoped BigOperators

namespace Cert.Spec

open Idealize.ShloMosaic Idealize.ShloMosaic.ValueIdx

/-- Tokens grouped by expert. -/
abbrev SX : Shape := ⟨3, ![8, 1024, 2048]⟩
/-- The fused gate/up projection. -/
abbrev SGU : Shape := ⟨3, ![8, 2048, 8192]⟩
/-- The down projection. -/
abbrev SDN : Shape := ⟨3, ![8, 4096, 2048]⟩

/-- Column `f` of the gate half of the fused projection. -/
def gcol (f : Fin 4096) : Fin 8192 := ⟨f.val, by omega⟩
/-- Column `f` of the up half of the fused projection. -/
def ucol (f : Fin 4096) : Fin 8192 := ⟨4096 + f.val, by omega⟩

/-- One entry of the fused projection: row `r` of expert `n`'s tokens against column `j` of its weights. -/
def proj (x : FVec Ideal SX .f32) (gu : FVec Ideal SGU .f32) (n : Fin 8) (r : Fin 1024) (j : Fin 8192) : EReal :=
  ∑ k : Fin 2048, x (ix3 n r k) * gu (ix3 n k j)

/-- The gated activation: the up projection times the SiLU of the gate projection. -/
def act (x : FVec Ideal SX .f32) (gu : FVec Ideal SGU .f32) (n : Fin 8) (r : Fin 1024) (f : Fin 4096) : EReal :=
  proj x gu n r (ucol f) * (proj x gu n r (gcol f) * Ideal.logistic (proj x gu n r (gcol f)))

/-- The layer's output, expert by expert. -/
def out (x : FVec Ideal SX .f32) (gu : FVec Ideal SGU .f32) (dn : FVec Ideal SDN .f32) : FVec Ideal SX .f32 :=
  fun i => ∑ f : Fin 4096, act x gu (i 0) (i 1) f * dn (ix3 (i 0) f (i 2))

theorem out_apply (x : FVec Ideal SX .f32) (gu : FVec Ideal SGU .f32) (dn : FVec Ideal SDN .f32)
    (n : Fin 8) (r : Fin 1024) (h : Fin 2048) :
    out x gu dn (ix3 n r h) = ∑ f : Fin 4096, act x gu n r f * dn (ix3 n f h) := rfl

end Cert.Spec

end
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.KIValue.lean ====
/-
  The idealized kernel's result array, as a value.

  The grid walks 8 experts × 32 tiles of the feed-forward width; point `t` is tile `t % 32` of expert `t / 32`. A
  point multiplies the expert's 1024 token rows by tile `t % 32` of the gate and of the up weights (128 columns
  each), forms the gated activation, multiplies it by the matching 128 rows of the down weights and adds the product
  to an accumulator that the expert's first tile clears; the expert's last tile copies the accumulator into the
  expert's block of the output.

  So after point `t` the accumulator holds, at (p, q), the sum of tiles 0 … t % 32 of

      Σ_{f < 4096} act n p f · dn[n, f, q],        n = t / 32,

  each tile being 128 consecutive terms (by induction on the point; only 0 + a = a and the shape of a range sum are
  used). At a last tile that is all 32 tiles, which regroup into the 4096 terms of the layer's output; the blocks
  written back at the last tiles cover the output array, one per expert.
-/
import proofs.«136953_j71640054497665_1_alg».proof.Proof.KIFrame
import proofs.«136953_j71640054497665_1_alg».proof.Proof.KIPayload
import proofs.«136953_j71640054497665_1_alg».proof.Proof.Spec
import proofs.«136953_j71640054497665_1_alg».proof.Proof.LibBlockSum
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## What each case's stores leave, as values -/

section Pieces
variable {F : FTy → Type} [FloatOps F]

/-- The accumulator is stored and loaded at offset zero on both axes, -/
theorem hz2 : (![0, 0] : Fin 2 → Nat) = fun _ => 0 := funext fun a => by fin_cases a <;> rfl
/-- and the blocks at offset zero on all three. -/
theorem hz3 : (![0, 0, 0] : Fin 3 → Nat) = fun _ => 0 := funext fun a => by fin_cases a <;> rfl

/-- A middle tile leaves the accumulator at the tile's update of what it held. -/
theorem sout_B (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x128 .f32) (x2 : Vec F S1x2048x128 .f32) (x3 : Vec F S1x128x2048 .f32) (xs0 : Vec F S1024x2048 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S1x1024x2048) hz3, View.ld_unit_zero (S := S1x2048x128) hz3, View.ld_unit_zero (S := S1x128x2048) hz3,
    View.ld_unit_zero (S := S1024x2048) hz2]

/-- The last tile leaves the accumulator at the tile's update of what it held, -/
theorem sout_C (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S1x1024x2048) hz3, View.ld_unit_zero (S := S1x2048x128) hz3, View.ld_unit_zero (S := S1x128x2048) hz3,
    View.ld_unit_zero (S := S1024x2048) hz2]

/-- and the output block's buffer at that same value with a unit axis in front. -/
theorem out_C (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x128 .f32) (x2 : Vec F S1x2048x128 .f32) (x3 : Vec F S1x128x2048 .f32) (xs0 : Vec F S1024x2048 .f32) :
    out0_C_4 c i arg2 harg2 arg3 harg3 arg4 harg4 arg5 harg5 arg6 harg6 arg7 harg7 hc0 hc1 x0 x1 x2 x3 xs0 = k0_pay3 (k0_pay2 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readCov_unit_zero (S := S1024x2048) _ hz2, View.readAt_eq_ld, harg2.read_unread, harg3.read_unread, harg4.read_unread, harg5.read_unread, harg7.read_unread,
    View.ld_unit_zero (S := S1x1024x2048) hz3, View.ld_unit_zero (S := S1x2048x128) hz3, View.ld_unit_zero (S := S1x128x2048) hz3,
    View.ld_unit_zero (S := S1024x2048) hz2]

/-- The first tile clears the accumulator and leaves the tile's update of the cleared value. -/
theorem sout_A (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x128 .f32) (x2 : Vec F S1x2048x128 .f32) (x3 : Vec F S1x128x2048 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x2048) hz2, View.readCov_unit_zero (S := S1024x2048) _ hz2]
  simp only [View.readAt_eq_ld, harg2.read_unread, harg3.read_unread, harg4.read_unread, harg5.read_unread,
    View.ld_unit_zero (S := S1x1024x2048) hz3, View.ld_unit_zero (S := S1x2048x128) hz3, View.ld_unit_zero (S := S1x128x2048) hz3]

end Pieces

/-! ## The arrays and the blocks, named at their literal types -/

section Blocks
variable (m : (ℓ : Loc nD τ sig) → Buf (Elt Ideal) ℓ)

/-- The tokens grouped by expert, as the region finds them. -/
abbrev xarr (c : Dev nD) : FVec Ideal Cert.Spec.SX .f32 := V m c main_v0
/-- The fused gate/up weights. -/
abbrev guarr (c : Dev nD) : FVec Ideal Cert.Spec.SGU .f32 := V m c main_arg1
/-- The down weights. -/
abbrev dnarr (c : Dev nD) : FVec Ideal Cert.Spec.SDN .f32 := V m c main_arg2

/-- The token block of point `t`, -/
abbrev xblk (c : Dev nD) (t : Fin cfg0.N) : Vec Ideal S1x1024x2048 .f32 := iblk m c 0 t
/-- its gate tile, -/
abbrev gblk (c : Dev nD) (t : Fin cfg0.N) : Vec Ideal S1x2048x128 .f32 := iblk m c 1 t
/-- its up tile, -/
abbrev ublk (c : Dev nD) (t : Fin cfg0.N) : Vec Ideal S1x2048x128 .f32 := iblk m c 2 t
/-- and its down tile. -/
abbrev dblk (c : Dev nD) (t : Fin cfg0.N) : Vec Ideal S1x128x2048 .f32 := iblk m c 3 t

/-- The block index of every window at every point, decided over the grid: point `t` is tile `t % 32` of expert
    `t / 32`; the up tiles sit 32 tiles to the right of the gate tiles. -/
theorem idx_facts : ∀ t : Fin cfg0.N,
    (win0_0.index t (0 : Fin 3) = t.val / 32 ∧ win0_0.index t (1 : Fin 3) = 0 ∧ win0_0.index t (2 : Fin 3) = 0)
    ∧ (win0_1.index t (0 : Fin 3) = t.val / 32 ∧ win0_1.index t (1 : Fin 3) = 0 ∧ win0_1.index t (2 : Fin 3) = t.val % 32)
    ∧ (win0_2.index t (0 : Fin 3) = t.val / 32 ∧ win0_2.index t (1 : Fin 3) = 0 ∧ win0_2.index t (2 : Fin 3) = 32 + t.val % 32)
    ∧ (win0_3.index t (0 : Fin 3) = t.val / 32 ∧ win0_3.index t (1 : Fin 3) = t.val % 32 ∧ win0_3.index t (2 : Fin 3) = 0)
    ∧ (win0_4.index t (0 : Fin 3) = t.val / 32 ∧ win0_4.index t (1 : Fin 3) = 0 ∧ win0_4.index t (2 : Fin 3) = 0) :=
  (by decide +kernel : ∀ t : Fin grid0.N, _)

/-- The grid has 256 points. -/
theorem lt_N (t : Fin cfg0.N) : t.val < 256 := lt_of_lt_of_eq t.isLt (show cfg0.N = 256 from N_0)

/-- The token block of point `t` is the rows of expert `t / 32`. -/
theorem xblk_apply (c : Dev nD) (t : Fin cfg0.N) (n : Fin 8) (hn : n.val = t.val / 32) (p : Fin 1024) (k : Fin 2048) :
    xblk m c t (ix3 0 p k) = xarr m c (ix3 n p k) := by
  obtain ⟨⟨e0, e1, e2⟩, -⟩ := idx_facts t
  show V m c main_v0 (((cfg0.win 0).blk t).view.emb (ix3 0 p k)) = V m c main_v0 _
  refine congrArg (V m c main_v0) (funext fun a => Fin.ext ?_)
  match a with
  | ⟨0, _⟩ => show win0_0.index t (0 : Fin 3) * 1 + 1 * 0 = n.val; omega
  | ⟨1, _⟩ => show win0_0.index t (1 : Fin 3) * 1024 + 1 * p.val = p.val; omega
  | ⟨2, _⟩ => show win0_0.index t (2 : Fin 3) * 2048 + 1 * k.val = k.val; omega

/-- Its gate tile is columns `(t % 32) · 128 …` of that expert's fused weights, -/
theorem gblk_apply (c : Dev nD) (t : Fin cfg0.N) (n : Fin 8) (hn : n.val = t.val / 32) (k : Fin 2048) (j : Fin 128)
    (f : Fin 8192) (hf : f.val = t.val % 32 * 128 + j.val) :
    gblk m c t (ix3 0 k j) = guarr m c (ix3 n k f) := by
  obtain ⟨-, ⟨e0, e1, e2⟩, -⟩ := idx_facts t
  show V m c main_arg1 (((cfg0.win 1).blk t).view.emb (ix3 0 k j)) = V m c main_arg1 _
  refine congrArg (V m c main_arg1) (funext fun a => Fin.ext ?_)
  match a with
  | ⟨0, _⟩ => show win0_1.index t (0 : Fin 3) * 1 + 1 * 0 = n.val; omega
  | ⟨1, _⟩ => show win0_1.index t (1 : Fin 3) * 2048 + 1 * k.val = k.val; omega
  | ⟨2, _⟩ => show win0_1.index t (2 : Fin 3) * 128 + 1 * j.val = f.val; omega

/-- its up tile the same columns of the up half, 4096 further on, -/
theorem ublk_apply (c : Dev nD) (t : Fin cfg0.N) (n : Fin 8) (hn : n.val = t.val / 32) (k : Fin 2048) (j : Fin 128)
    (f : Fin 8192) (hf : f.val = 4096 + (t.val % 32 * 128 + j.val)) :
    ublk m c t (ix3 0 k j) = guarr m c (ix3 n k f) := by
  obtain ⟨-, -, ⟨e0, e1, e2⟩, -⟩ := idx_facts t
  show V m c main_arg1 (((cfg0.win 2).blk t).view.emb (ix3 0 k j)) = V m c main_arg1 _
  refine congrArg (V m c main_arg1) (funext fun a => Fin.ext ?_)
  match a with
  | ⟨0, _⟩ => show win0_2.index t (0 : Fin 3) * 1 + 1 * 0 = n.val; omega
  | ⟨1, _⟩ => show win0_2.index t (1 : Fin 3) * 2048 + 1 * k.val = k.val; omega
  | ⟨2, _⟩ => show win0_2.index t (2 : Fin 3) * 128 + 1 * j.val = f.val; omega

/-- and its down tile rows `(t % 32) · 128 …` of that expert's down weights. -/
theorem dblk_apply (c : Dev nD) (t : Fin cfg0.N) (n : Fin 8) (hn : n.val = t.val / 32) (j : Fin 128) (q : Fin 2048)
    (f : Fin 4096) (hf : f.val = t.val % 32 * 128 + j.val) :
    dblk m c t (ix3 0 j q) = dnarr m c (ix3 n f q) := by
  obtain ⟨-, -, -, ⟨e0, e1, e2⟩, -⟩ := idx_facts t
  show V m c main_arg2 (((cfg0.win 3).blk t).view.emb (ix3 0 j q)) = V m c main_arg2 _
  refine congrArg (V m c main_arg2) (funext fun a => Fin.ext ?_)
  match a with
  | ⟨0, _⟩ => show win0_3.index t (0 : Fin 3) * 1 + 1 * 0 = n.val; omega
  | ⟨1, _⟩ => show win0_3.index t (1 : Fin 3) * 128 + 1 * j.val = f.val; omega
  | ⟨2, _⟩ => show win0_3.index t (2 : Fin 3) * 2048 + 1 * q.val = q.val; omega

/-- No host operation before the region writes the weights: the region finds them as launched, -/
theorem guarr_eq (c : Dev nD) : guarr m c = m ((c : Thread nD τ).loc main_arg1) := by
  show V m c main_arg1 = _
  dsimp only [V, V0, hostOps0]; after_results
theorem dnarr_eq (c : Dev nD) : dnarr m c = m ((c : Thread nD τ).loc main_arg2) := by
  show V m c main_arg2 = _
  dsimp only [V, V0, hostOps0]; after_results
/-- and the tokens regrouped by expert. -/
theorem xarr_eq (c : Dev nD) :
    xarr m c = shapeCast S8x1024x2048 (m ((c : Thread nD τ).loc main_arg0)) shapeCasts_S8192x2048_S8x1024x2048 := by
  show V m c main_v0 = _
  dsimp only [V, V0, hostOps0]; after_results; rfl

end Blocks

/-! ## The accumulator after each point -/

section Invariant
variable (m : (ℓ : Loc nD τ sig) → Buf (Elt Ideal) ℓ)

/-- Term `f` of expert `n`'s output at (p, q): the activation at feature `f` against the down weights; zero past the
    feed-forward width, so that it is a total function of a natural index. -/
def term (c : Dev nD) (n : Fin 8) (p : Fin 1024) (q : Fin 2048) (f : ℕ) : EReal :=
  if h : f < 4096 then Cert.Spec.act (xarr m c) (guarr m c) n p ⟨f, h⟩ * dnarr m c (ix3 n ⟨f, h⟩ q) else 0

/-- The contribution of tile `fi`: its 128 terms. -/
def tile (c : Dev nD) (n : Fin 8) (p : Fin 1024) (q : Fin 2048) (fi : ℕ) : EReal :=
  ∑ j : Fin 128, term m c n p q (fi * 128 + j.val)

/-- The gate projection of a tile is the fused projection at the gate column, -/
theorem tproj_gate (c : Dev nD) (t : Fin cfg0.N) (n : Fin 8) (hn : n.val = t.val / 32) (p : Fin 1024) (j : Fin 128)
    (f : Fin 4096) (hf : f.val = t.val % 32 * 128 + j.val) :
    PayValue.tproj (xblk m c t) (gblk m c t) p j = Cert.Spec.proj (xarr m c) (guarr m c) n p (Cert.Spec.gcol f) :=
  Finset.sum_congr rfl fun k _ =>
    congrArg₂ (· * ·) (xblk_apply m c t n hn p k) (gblk_apply m c t n hn k j (Cert.Spec.gcol f) hf)

/-- the up projection at the up column, -/
theorem tproj_up (c : Dev nD) (t : Fin cfg0.N) (n : Fin 8) (hn : n.val = t.val / 32) (p : Fin 1024) (j : Fin 128)
    (f : Fin 4096) (hf : f.val = t.val % 32 * 128 + j.val) :
    PayValue.tproj (xblk m c t) (ublk m c t) p j = Cert.Spec.proj (xarr m c) (guarr m c) n p (Cert.Spec.ucol f) :=
  Finset.sum_congr rfl fun k _ =>
    congrArg₂ (· * ·) (xblk_apply m c t n hn p k) (ublk_apply m c t n hn k j (Cert.Spec.ucol f) (congrArg (4096 + ·) hf))

/-- and so the tile's gated activation is the layer's at that feature. -/
theorem tact_eq (c : Dev nD) (t : Fin cfg0.N) (n : Fin 8) (hn : n.val = t.val / 32) (p : Fin 1024) (j : Fin 128)
    (f : Fin 4096) (hf : f.val = t.val % 32 * 128 + j.val) :
    PayValue.tact (xblk m c t) (gblk m c t) (ublk m c t) p j = Cert.Spec.act (xarr m c) (guarr m c) n p f := by
  unfold PayValue.tact Cert.Spec.act
  rw [tproj_gate m c t n hn p j f hf, tproj_up m c t n hn p j f hf]

/-- What point `t` adds to the accumulator at (p, q) is tile `t % 32` of expert `t / 32`'s output. -/
theorem tile_eq (c : Dev nD) (t : Fin cfg0.N) (n : Fin 8) (hn : n.val = t.val / 32) (p : Fin 1024) (q : Fin 2048) :
    ∑ j : Fin 128, PayValue.tact (xblk m c t) (gblk m c t) (ublk m c t) p j * dblk m c t (ix3 0 j q)
      = tile m c n p q (t.val % 32) := by
  unfold tile
  refine Finset.sum_congr rfl fun j _ => ?_
  have hlt : t.val % 32 * 128 + j.val < 4096 := by
    have := j.isLt; have := Nat.mod_lt t.val (show 0 < 32 by omega); omega
  unfold term
  rw [dif_pos hlt, tact_eq m c t n hn p j ⟨_, hlt⟩ rfl, dblk_apply m c t n hn j q ⟨_, hlt⟩ rfl]

/-- At an expert's first tile the accumulator is left at that tile alone; -/
theorem step_first (c : Dev nD) (t : Fin cfg0.N) (h0 : t.val % 32 = 0) (n : Fin 8) (hn : n.val = t.val / 32)
    (p : Fin 1024) (q : Fin 2048) :
    (outsAt0 m c t.val t.isLt).2 (ix2 p q) = 0 + tile m c n p q (t.val % 32) := by
  rw [outsAt0_A m c t h0]; dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => by have := (hcond0_1 t).mp h; omega) (xblk m c t) (gblk m c t) (ublk m c t) (dblk m c t)) (ix2 p q)).trans ?_
  refine (PayValue.pay2_apply (xblk m c t) (gblk m c t) (ublk m c t) (dblk m c t) (k0_pay1 (F := Ideal)) p q).trans ?_
  rw [PayValue.pay1_apply, tile_eq m c t n hn p q]

/-- at a later tile, at what the tile before left plus this tile. -/
theorem step_later (c : Dev nD) (t : Fin cfg0.N) (h0 : ¬t.val % 32 = 0) (n : Fin 8) (hn : n.val = t.val / 32)
    (p : Fin 1024) (q : Fin 2048) :
    (outsAt0 m c t.val t.isLt).2 (ix2 p q)
      = (outsAt0 m c (t.val - 1) (Nat.lt_of_le_of_lt (Nat.sub_le _ _) t.isLt)).2 (ix2 p q) + tile m c n p q (t.val % 32) := by
  by_cases h1 : t.val % 32 = 31
  · rw [outsAt0_C m c t h0 h1]; dsimp only
    refine (congrFun (sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (gblk m c t) (ublk m c t) (dblk m c t) (outsAt0 m c (t.val - 1) (Nat.lt_of_le_of_lt (Nat.sub_le _ _) t.isLt)).2) (ix2 p q)).trans ?_
    refine (PayValue.pay2_apply (xblk m c t) (gblk m c t) (ublk m c t) (dblk m c t) (outsAt0 m c (t.val - 1) (Nat.lt_of_le_of_lt (Nat.sub_le _ _) t.isLt)).2 p q).trans ?_
    rw [tile_eq m c t n hn p q]
  · rw [outsAt0_B m c t h0 h1]; dsimp only
    refine (congrFun (sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (xblk m c t) (gblk m c t) (ublk m c t) (dblk m c t) (outsAt0 m c (t.val - 1) (Nat.lt_of_le_of_lt (Nat.sub_le _ _) t.isLt)).2) (ix2 p q)).trans ?_
    refine (PayValue.pay2_apply (xblk m c t) (gblk m c t) (ublk m c t) (dblk m c t) (outsAt0 m c (t.val - 1) (Nat.lt_of_le_of_lt (Nat.sub_le _ _) t.isLt)).2 p q).trans ?_
    rw [tile_eq m c t n hn p q]

/-- THE INVARIANT: after point `k` the accumulator holds, at (p, q), tiles 0 … k % 32 of expert k / 32's output. -/
theorem acc_eq (c : Dev nD) : ∀ (k : ℕ) (hk : k < cfg0.N) (n : Fin 8) (hn : n.val = k / 32) (p : Fin 1024) (q : Fin 2048),
    (outsAt0 m c k hk).2 (ix2 p q) = ∑ fi ∈ Finset.range (k % 32 + 1), tile m c n p q fi := by
  intro k
  induction k with
  | zero =>
    intro hk n hn p q
    rw [step_first m c ⟨0, hk⟩ rfl n hn p q, zero_add]
    exact (Finset.sum_range_one _).symm
  | succ k ih =>
    intro hk n hn p q
    by_cases h0 : (k + 1) % 32 = 0
    · rw [step_first m c ⟨k + 1, hk⟩ h0 n hn p q, zero_add]
      show tile m c n p q ((k + 1) % 32) = _
      rw [h0]
      exact (Finset.sum_range_one _).symm
    · rw [step_later m c ⟨k + 1, hk⟩ h0 n hn p q]
      show (outsAt0 m c k _).2 (ix2 p q) + tile m c n p q ((k + 1) % 32) = _
      rw [ih (Nat.lt_of_succ_lt hk) n (by omega) p q, show (k + 1) % 32 = k % 32 + 1 by omega]
      exact (Finset.sum_range_succ _ _).symm

end Invariant

/-! ## The array after the grid -/

section Final
variable (m : (ℓ : Loc nD τ sig) → Buf (Elt Ideal) ℓ)

/-- The 32 tiles of an expert's output at (p, q), in order, are its 4096 terms. -/
theorem tiles_eq_out (c : Dev nD) (n : Fin 8) (p : Fin 1024) (q : Fin 2048) :
    ∑ fi ∈ Finset.range 32, tile m c n p q fi
      = Cert.Spec.out (xarr m c) (guarr m c) (dnarr m c) (ix3 n p q) := by
  rw [Cert.Spec.out_apply,
    Cert.BlockSum.sum_blocks 32 128 (by norm_num)
      (fun f : Fin 4096 => Cert.Spec.act (xarr m c) (guarr m c) n p f * dnarr m c (ix3 n f q)),
    ← Fin.sum_univ_eq_sum_range (fun fi => tile m c n p q fi) 32]
  refine Finset.sum_congr rfl fun kb _ => ?_
  unfold tile
  refine Finset.sum_congr rfl fun kk _ => ?_
  have hlt : kb.val * 128 + kk.val < 4096 := by have := kb.isLt; have := kk.isLt; omega
  unfold term
  rw [dif_pos hlt]

/-- What an expert's last tile leaves in the accumulator is the expert's output. -/
theorem last_eq_out (c : Dev nD) (t : Fin cfg0.N) (h31 : t.val % 32 = 31) (n : Fin 8) (hn : n.val = t.val / 32)
    (p : Fin 1024) (q : Fin 2048) :
    (outsAt0 m c t.val t.isLt).2 (ix2 p q) = Cert.Spec.out (xarr m c) (guarr m c) (dnarr m c) (ix3 n p q) := by
  rw [acc_eq m c t.val t.isLt n hn p q, h31]
  exact tiles_eq_out m c n p q

/-- WHAT AN EXPERT'S LAST POINT WRITES BACK is that expert's block of the layer's output. -/
theorem flushed_eq (c : Dev nD) (t : Fin cfg0.N) (hf : (cfg0.win 4).flush t = true) :
    (dats (F := Ideal) m 0 c).flushed 4 t
      = ((cfg0.win 4).blk t).view.read (Elt Ideal) (Cert.Spec.out (xarr m c) (guarr m c) (dnarr m c)) := by
  have h31 : t.val % 32 = 31 := (flush0_4 t).mp hf
  have h0 : ¬t.val % 32 = 0 := by omega
  have hN := lt_N t
  have hacc : (outsAt0 m c t.val t.isLt).2 = k0_pay2 (F := Ideal) (xblk m c t) (gblk m c t) (ublk m c t) (dblk m c t) (outsAt0 m c (t.val - 1) (Nat.lt_of_le_of_lt (Nat.sub_le _ _) t.isLt)).2 := by
    rw [outsAt0_C m c t h0 h31]; dsimp only
    exact sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h31) (xblk m c t) (gblk m c t) (ublk m c t) (dblk m c t) (outsAt0 m c (t.val - 1) (Nat.lt_of_le_of_lt (Nat.sub_le _ _) t.isLt)).2
  have hout : (outsAt0 m c t.val t.isLt).1 = k0_pay3 (F := Ideal) (outsAt0 m c t.val t.isLt).2 := by
    rw [hacc, outsAt0_C m c t h0 h31]; dsimp only
    exact out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h31) (xblk m c t) (gblk m c t) (ublk m c t) (dblk m c t) (outsAt0 m c (t.val - 1) (Nat.lt_of_le_of_lt (Nat.sub_le _ _) t.isLt)).2
  show (cfg0.win 4).cut (grid0.coords t) ((dats (F := Ideal) m 0 c).after 4 t) = _
  rw [after0_4, hout]
  funext y
  have hu : (y 0).val < 1 := (y 0).isLt
  have hp : (y 1).val < 1024 := (y 1).isLt
  have hq : (y 2).val < 2048 := (y 2).isLt
  obtain ⟨-, -, -, -, ⟨e0, e1, e2⟩⟩ := idx_facts t
  have hemb : ((cfg0.win 4).blk t).view.emb y
      = ix3 (⟨t.val / 32, by omega⟩ : Fin 8) (⟨(y 1).val, hp⟩ : Fin 1024) (⟨(y 2).val, hq⟩ : Fin 2048) := by
    funext a; apply Fin.ext
    match a with
    | ⟨0, _⟩ => show win0_4.index t (0 : Fin 3) * 1 + 1 * (y 0).val = t.val / 32; omega
    | ⟨1, _⟩ => show win0_4.index t (1 : Fin 3) * 1024 + 1 * (y 1).val = (y 1).val; omega
    | ⟨2, _⟩ => show win0_4.index t (2 : Fin 3) * 2048 + 1 * (y 2).val = (y 2).val; omega
  have hinj : (cfg0.win 4).xinj (grid0.coords t) y
      = ix3 (⟨(y 0).val, hu⟩ : Fin 1) (⟨(y 1).val, hp⟩ : Fin 1024) (⟨(y 2).val, hq⟩ : Fin 2048) := by
    funext a; apply Fin.ext
    match a with
    | ⟨0, _⟩ => rfl
    | ⟨1, _⟩ => rfl
    | ⟨2, _⟩ => rfl
  show k0_pay3 (F := Ideal) (outsAt0 m c t.val t.isLt).2 ((cfg0.win 4).xinj (grid0.coords t) y)
    = Cert.Spec.out (xarr m c) (guarr m c) (dnarr m c) (((cfg0.win 4).blk t).view.emb y)
  rw [hemb, hinj]
  rw [show (⟨(y 0).val, hu⟩ : Fin 1) = 0 from Subsingleton.elim _ _]
  refine (PayValue.pay3_apply (outsAt0 m c t.val t.isLt).2 _ _).trans ?_
  exact last_eq_out m c t h31 _ rfl _ _

/-- Every index of the output array lies in the block its expert's last point writes back. -/
theorem cover (i : S8x1024x2048.Idx) :
    ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 2048 := (i 2).isLt
  have hlt : (i 0).val * 32 + 31 < cfg0.N := by rw [show cfg0.N = 256 from N_0]; omega
  refine ⟨⟨(i 0).val * 32 + 31, hlt⟩, (flush0_4 _).mpr (by show ((i 0).val * 32 + 31) % 32 = 31; omega), ?_⟩
  obtain ⟨-, -, -, -, ⟨e0, e1, e2⟩⟩ := idx_facts ⟨(i 0).val * 32 + 31, hlt⟩
  have e0' : win0_4.index ⟨(i 0).val * 32 + 31, hlt⟩ (0 : Fin 3) = ((i 0).val * 32 + 31) / 32 := e0
  show i ∈ ((View.whole main_v1).slice (win0_4.rect ⟨(i 0).val * 32 + 31, hlt⟩)).set
  rw [View.set_slice_whole, Rect.mem_set_unit]
  intro a
  match a with
  | ⟨0, _⟩ =>
    show win0_4.index ⟨(i 0).val * 32 + 31, hlt⟩ (0 : Fin 3) * 1 ≤ (i 0).val
      ∧ (i 0).val < win0_4.index ⟨(i 0).val * 32 + 31, hlt⟩ (0 : Fin 3) * 1 + 1
    omega
  | ⟨1, _⟩ =>
    show win0_4.index ⟨(i 0).val * 32 + 31, hlt⟩ (1 : Fin 3) * 1024 ≤ (i 1).val
      ∧ (i 1).val < win0_4.index ⟨(i 0).val * 32 + 31, hlt⟩ (1 : Fin 3) * 1024 + 1024
    omega
  | ⟨2, _⟩ =>
    show win0_4.index ⟨(i 0).val * 32 + 31, hlt⟩ (2 : Fin 3) * 2048 ≤ (i 2).val
      ∧ (i 2).val < win0_4.index ⟨(i 0).val * 32 + 31, hlt⟩ (2 : Fin 3) * 2048 + 2048
    omega

/-- After the whole grid the output array holds the layer's output of the tokens grouped by expert. -/
theorem final4 (c : Dev nD) :
    (dats (F := Ideal) m 0 c).arrAt 4 cfg0.N
      = Cert.Spec.out (shapeCast S8x1024x2048 (m ((c : Thread nD τ).loc main_arg0)) shapeCasts_S8192x2048_S8x1024x2048)
          (m ((c : Thread nD τ).loc main_arg1)) (m ((c : Thread nD τ).loc main_arg2)) := by
  have e := (dats (F := Ideal) m 0 c).arrAt_eq_of_cover 4 (Cert.Spec.out (xarr m c) (guarr m c) (dnarr m c))
    (flushed_eq m c) cover
  rw [xarr_eq m c, guarr_eq m c, dnarr_eq m c] at e
  exact e

end Final

end Cert.KernelIdeal.Hand

end
-- ==== Proof.RefValue.lean ====
/-
  The reference program's result, read index by index: it is the layer's output `Cert.Spec.out` of the tokens grouped by
  expert, flattened back to [8192, 2048].

  The reference groups the tokens by expert (a reshape), multiplies each expert's tokens by its fused gate/up weights, cuts
  the product into its gate half (columns 0..4095) and its up half (columns 4096..8191), forms up · (gate · 1/(1 + e^(-gate))),
  multiplies by the expert's down projection and flattens the result. Stage by stage these are the specification's `proj`,
  `act` and `out`: the same sums in the same order, with 1/(1 + e^(-g)) the logistic function by its definition. The two
  reshapes stand verbatim on both sides and are never read at an index.
-/
import proofs.«136953_j71640054497665_1_alg».proof.Proof.Gen.ReferenceIdeal.Run
import proofs.«136953_j71640054497665_1_alg».proof.Proof.Gen.ReferenceIdeal.Read
import proofs.«136953_j71640054497665_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The pattern 0x3F800000 denotes the number one. -/
theorem one_f32 : Ideal.ofBits .f32 0x3F800000#32 = 1 := by
  simp [Ideal.ofBits, Ideal.ieee, -EReal.coe_mul]; norm_num

/-- The first product at an index is the specification's fused projection of the grouped tokens. -/
theorem proj_eq (x0 : (⟨S8192x2048, .f32⟩ : BufTy).Contents (Elt Ideal)) (x1 : (⟨S8x2048x8192, .f32⟩ : BufTy).Contents (Elt Ideal))
    (n : Fin 8) (r : Fin 1024) (j : Fin 8192) :
    val_main_v1 (F := Ideal) x0 x1 (ix3 n r j) = Cert.Spec.proj (val_main_v0 (F := Ideal) x0) x1 n r j := by
  rw [val_main_v1_apply]
  unfold Cert.Spec.proj
  refine Finset.sum_congr rfl fun k _ => ?_
  have el : lidx_main_v1 (ix3 n r j) k = ix3 n r k := funext fun a => Fin.ext (by
    match a with | ⟨0, _⟩ => rfl | ⟨1, _⟩ => rfl | ⟨2, _⟩ => rfl)
  have er : ridx_main_v1 (ix3 n r j) k = ix3 n k j := funext fun a => Fin.ext (by
    match a with | ⟨0, _⟩ => rfl | ⟨1, _⟩ => rfl | ⟨2, _⟩ => rfl)
  rw [el, er]

/-- The gate half's column `f` is column `f` of the fused projection. -/
theorem gate_idx (n : Fin 8) (r : Fin 1024) (f : Fin 4096) :
    idx_main_v2 (ix3 n r f) = ix3 n r (Cert.Spec.gcol f) := funext fun a => Fin.ext (by
  match a with | ⟨0, _⟩ => rfl | ⟨1, _⟩ => rfl | ⟨2, _⟩ => rfl)

/-- The up half's column `f` is column `4096 + f` of the fused projection. -/
theorem up_idx (n : Fin 8) (r : Fin 1024) (f : Fin 4096) :
    idx_main_v3 (ix3 n r f) = ix3 n r (Cert.Spec.ucol f) := funext fun a => Fin.ext (by
  match a with | ⟨0, _⟩ => rfl | ⟨1, _⟩ => rfl | ⟨2, _⟩ => rfl)

/-- The gated activation at an index: the up projection times the gate projection times 1/(1 + e^(-gate)), which is the
    logistic function of the gate projection. -/
theorem act_eq (x0 : (⟨S8192x2048, .f32⟩ : BufTy).Contents (Elt Ideal)) (x1 : (⟨S8x2048x8192, .f32⟩ : BufTy).Contents (Elt Ideal))
    (n : Fin 8) (r : Fin 1024) (f : Fin 4096) :
    val_main_v5 (F := Ideal) x0 x1 (ix3 n r f) = Cert.Spec.act (val_main_v0 (F := Ideal) x0) x1 n r f := by
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, val_main_v3_apply, val_main_v2_apply, gate_idx, up_idx, proj_eq, proj_eq]
  unfold Cert.Spec.act
  simp only [Ideal.mulf_def, Ideal.hostDivf_def, Ideal.addf_def, Ideal.hostUnary_exp_def, Ideal.hostNegf_def, Ideal.negf_def,
    Ideal.ofBits_def, one_f32, Ideal.logistic]

/-- The second product is the layer's output of the grouped tokens. -/
theorem out_eq (x0 : (⟨S8192x2048, .f32⟩ : BufTy).Contents (Elt Ideal)) (x1 : (⟨S8x2048x8192, .f32⟩ : BufTy).Contents (Elt Ideal))
    (x2 : (⟨S8x4096x2048, .f32⟩ : BufTy).Contents (Elt Ideal)) :
    val_main_v6 (F := Ideal) x0 x1 x2 = Cert.Spec.out (val_main_v0 (F := Ideal) x0) x1 x2 := by
  funext i
  obtain ⟨n, r, h, rfl⟩ : ∃ (n : Fin 8) (r : Fin 1024) (h : Fin 2048), i = ix3 n r h := ⟨i 0, i 1, i 2, eq_ix3 i⟩
  rw [val_main_v6_apply, Cert.Spec.out_apply]
  refine Finset.sum_congr rfl fun f _ => ?_
  have el : lidx_main_v6 (ix3 n r h) f = ix3 n r f := funext fun a => Fin.ext (by
    match a with | ⟨0, _⟩ => rfl | ⟨1, _⟩ => rfl | ⟨2, _⟩ => rfl)
  have er : ridx_main_v6 (ix3 n r h) f = ix3 n f h := funext fun a => Fin.ext (by
    match a with | ⟨0, _⟩ => rfl | ⟨1, _⟩ => rfl | ⟨2, _⟩ => rfl)
  rw [el, er, act_eq]

/-- The reference's flattened result is the layer's output of the tokens grouped by expert. -/
theorem result_eq (x0 : (⟨S8192x2048, .f32⟩ : BufTy).Contents (Elt Ideal)) (x1 : (⟨S8x2048x8192, .f32⟩ : BufTy).Contents (Elt Ideal))
    (x2 : (⟨S8x4096x2048, .f32⟩ : BufTy).Contents (Elt Ideal)) :
    val_main_v7 (F := Ideal) x0 x1 x2
      = shapeCast S8192x2048 (Cert.Spec.out (shapeCast S8x1024x2048 x0 shapeCasts_S8192x2048_S8x1024x2048) x1 x2)
          shapeCasts_S8x1024x2048_S8192x2048 := by
  have h := out_eq x0 x1 x2
  unfold val_main_v0 at h
  unfold val_main_v7
  rw [h]

/-- The reference's run with its result stated through the specification. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
          = shapeCast S8192x2048 (Cert.Spec.out (shapeCast S8x1024x2048 (m ((c.tc : Thread nD τ).loc main_arg0)) shapeCasts_S8192x2048_S8x1024x2048)
              (m ((c.tc : Thread nD τ).loc main_arg1)) (m ((c.tc : Thread nD τ).loc main_arg2))) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans ((val_main_v7_eq (F := Ideal) _ _ _).trans (result_eq _ _ _)), (h c).2⟩)
    (Cert.ReferenceIdeal.Value.run (F := Ideal) m ρ)

end Cert.ReferenceIdeal.RefValue

end
-- ==== Proof.lean ====
/-
  The certificate of a mixture-of-experts feed-forward layer with a gated activation: a pipelined kernel that walks
  8 experts × 32 tiles of the feed-forward width, accumulating the down projection tile by tile, against the plain
  einsum formulation.

  Both programs compute, for expert n, token row r and hidden column h,
      out n r h = Σ_{f < 4096} up n r f · (gate n r f · σ(gate n r f)) · down[n, f, h],
  with gate / up the two halves of the fused projection of the tokens (`Cert.Spec.out`). The kernel takes the sum over
  f in 32 blocks of 128, starting each expert from a cleared accumulator; the reference takes it in one contraction.
  On the extended reals the two agree by associativity and commutativity of the sum alone (the logistic function the
  kernel applies as one operation is, at the ideal instance, the expression 1 / (1 + e^(-x)) the reference spells
  out), so the precondition is never opened.

  The three frames: each kernel program's run is the launch of its pipeline (the two windows that read one array
  hold it in two half shares); the reference's is its run with the result dropped. The idealization rewrote nothing,
  so `preserves` is trivial.
-/
import proofs.«136953_j71640054497665_1_alg».proof.Defs
import proofs.«136953_j71640054497665_1_alg».proof.Proof.Gen.Kernel
import proofs.«136953_j71640054497665_1_alg».proof.Proof.Gen.KernelIdeal
import proofs.«136953_j71640054497665_1_alg».proof.Proof.Gen.ReferenceIdeal
import proofs.«136953_j71640054497665_1_alg».proof.Proof.Gen.ReferenceIdeal.Run
import proofs.«136953_j71640054497665_1_alg».proof.Proof.Gen.Pre_finite_inputs
import proofs.«136953_j71640054497665_1_alg».proof.Proof.KBMain
import proofs.«136953_j71640054497665_1_alg».proof.Proof.KIMain
import proofs.«136953_j71640054497665_1_alg».proof.Proof.KIValue
import proofs.«136953_j71640054497665_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the flattened layer output of the same arguments. -/
theorem algebraic : Cert.algebraic_KernelIdeal_ReferenceIdeal := by
  intro m ρ m' ρ' _ hagree
  refine ⟨fun c => shapeCast Cert.KernelIdeal.S8192x2048
      (Cert.Spec.out (shapeCast Cert.KernelIdeal.S8x1024x2048 (m ((c.tc : Thread Cert.KernelIdeal.nD Cert.KernelIdeal.τ).loc Cert.KernelIdeal.main_arg0)) Cert.KernelIdeal.Gen.shapeCasts_S8192x2048_S8x1024x2048)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      Cert.KernelIdeal.Gen.shapeCasts_S8x1024x2048_S8192x2048, ?_, ?_⟩
  · refine (θ_run Cert.KernelIdeal.defs _ _).mono (fun _ h c => ⟨(h c).1.trans ?_, (h c).2⟩)
      (Cert.KernelIdeal.Hand.run_main (F := Ideal) m ρ)
    rw [Cert.KernelIdeal.Hand.final4]
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
